-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S512x256 : Shape := ⟨2, ![512, 256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S262144x256 .f32) (main_arg1 : FVec F S512x256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  main_v8
-- ==== Kernel.lean ====
abbrev S262144x256 : Shape := ⟨2, ![262144, 256]⟩
abbrev S512x256 : Shape := ⟨2, ![512, 256]⟩
abbrev S2x1x512 : Shape := ⟨3, ![2, 1, 512]⟩
abbrev S2x1x1 : Shape := ⟨3, ![2, 1, 1]⟩
abbrev S2048x256 : Shape := ⟨2, ![2048, 256]⟩
abbrev S1x1x512 : Shape := ⟨3, ![1, 1, 512]⟩
abbrev S1x1x1 : Shape := ⟨3, ![1, 1, 1]⟩
abbrev S2048 : Shape := ⟨1, ![2048]⟩
abbrev S2048x1 : Shape := ⟨2, ![2048, 1]⟩
abbrev S512 : Shape := ⟨1, ![512]⟩
abbrev S1x512 : Shape := ⟨2, ![1, 512]⟩
abbrev S256x512 : Shape := ⟨2, ![256, 512]⟩
abbrev S2048x512 : Shape := ⟨2, ![2048, 512]⟩
abbrev S1x2048 : Shape := ⟨2, ![1, 2048]⟩
abbrev S1 : Shape := ⟨1, ![1]⟩
abbrev S1x1 : Shape := ⟨2, ![1, 1]⟩
abbrev S2x512 : Shape := ⟨2, ![2, 512]⟩
abbrev S_ : Shape := ⟨0, ![]⟩
abbrev S2 : Shape := ⟨1, ![2]⟩

abbrev nBuf : Space → Nat
  | .hbm => 21
  | .vmem => 9
  | .smem => 0
  | _ => 0

abbrev bufTy : (tb : Table) → Fin (tcTables nBuf tb) → BufTy
  | .hbm, ⟨0, _⟩ => ⟨S262144x256, .f32⟩
  | .hbm, ⟨1, _⟩ => ⟨S512x256, .f32⟩
  | .hbm, ⟨2, _⟩ => ⟨S2x1x512, .f32⟩
  | .hbm, ⟨3, _⟩ => ⟨S2x1x1, .f32⟩
  | .hbm, ⟨4, _⟩ => ⟨S2x512, .f32⟩
  | .hbm, ⟨5, _⟩ => ⟨S_, .f32⟩
  | .hbm, ⟨6, _⟩ => ⟨S512, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S2, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S512x256, .f32⟩
  | .local _ .vmem, ⟨3, _⟩ => ⟨S1x1x512, .f32⟩
  | .local _ .vmem, ⟨4, _⟩ => ⟨S1x1x512, .f32⟩
  | .local _ .vmem, ⟨5, _⟩ => ⟨S1x1x1, .f32⟩
  | .local _ .vmem, ⟨6, _⟩ => ⟨S1x1x1, .f32⟩
  | .local _ .vmem, ⟨7, _⟩ => ⟨S1x1x512, .f32⟩
  | .local _ .vmem, ⟨8, _⟩ => ⟨S1x1x1, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_cst_4 : Ref sig .tc := ⟨.hbm, 16, rfl⟩
abbrev main_v8 : Ref sig .tc := ⟨.hbm, 17, rfl⟩
abbrev main_cst_5 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v43 : BitVec 1 := Scalar.cmpi .eq arg1 c63_i32
  let v44 : BitVec 32 := Scalar.extui v43
  let c0_i32_23 : BitVec 32 := 0#32
  let v45 : BitVec 1 := Scalar.cmpi .ne v44 c0_i32_23
  v45

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x1x512_S1x1x512_0_0_0 : ∀ a, (![0, 0, 0] : Fin 3 → Nat) a + S1x1x512.size a ≤ S1x1x512.size a
  h_S1x1x512 : 0 < S1x1x512.numel
  shapeCasts_S1x1x512_S1x1x512 : S1x1x512.ShapeCasts S1x1x512
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S2048x256_S2048x256_0_0 : ∀ a, (![0, 0] : Fin 2 → Nat) a + S2048x256.size a ≤ S2048x256.size a
  h_S2048x256 : 0 < S2048x256.numel
  inb_S512x256_S512x256_0_0 : ∀ a, (![0, 0] : Fin 2 → Nat) a + S512x256.size a ≤ S512x256.size a
  h_S512x256 : 0 < S512x256.numel
  bitsLt_bf16_f32 : FTy.bits .bf16 < FTy.bits .f32
  reduces_S2048x256_S2048 : S2048x256.Reduces [1] S2048
  shapeCasts_S2048_S2048x1 : S2048.ShapeCasts S2048x1
  reduces_S512x256_S512 : S512x256.Reduces [1] S512
  shapeCasts_S512_S1x512 : S512.ShapeCasts S1x512
  transposes_S512x256_p1_0_S256x512 : S512x256.Transposes [1, 0] S256x512
  broadcasts_S2048x1_S2048x512 : S2048x1.Broadcasts S2048x512
  broadcasts_S1x512_S2048x512 : S1x512.Broadcasts S2048x512
  reduces_S2048x512_S2048 : S2048x512.Reduces [1] S2048
  shapeCasts_S2048_S1x2048 : S2048.ShapeCasts S1x2048
  reduces_S1x2048_S1 : S1x2048.Reduces [1] S1
  shapeCasts_S1_S1x1 : S1.ShapeCasts S1x1
  inpos_S1x1_p0_0 : ∀ a, (![0, 0] : Fin 2 → Nat) a < S1x1.size a
  reduces_S2048x512_S512 : S2048x512.Reduces [0] S512
  shapeCasts_S1x512_S1x1x512 : S1x512.ShapeCasts S1x1x512
  shapeCasts_S2x1x512_S2x512 : S2x1x512.ShapeCasts S2x512
  reducesTo_S2x512_S512_d0 : S2x512.ReducesTo [0] S512
  h_S_ : 0 < S_.numel
  reducesTo_S512_S_d0 : S512.ReducesTo [0] S_
  shapeCasts_S2x1x1_S2 : S2x1x1.ShapeCasts S2
  reducesTo_S2_S_d0 : S2.ReducesTo [0] S_
  dot_S2048x256_S256x512_S2048x512_1_0_0_1_n_n_wf : DotDims.WF S2048x256 S256x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S262144x256.size a
  hwx0_0 : ∀ i : grid0.Coords, EltTy.bits .f32 = 32 ∨ (Rect.block (s := S262144x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S2x1x512.size a
  hwx0_2 : ∀ i : grid0.Coords, EltTy.bits .f32 = 32 ∨ (Rect.block (s := S2x1x512) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S262144x256 : Shape := ⟨2, ![262144, 256]⟩
abbrev S512x256 : Shape := ⟨2, ![512, 256]⟩
abbrev S_ : Shape := ⟨0, ![]⟩
abbrev S262144 : Shape := ⟨1, ![262144]⟩
abbrev S262144x1 : Shape := ⟨2, ![262144, 1]⟩
abbrev S512 : Shape := ⟨1, ![512]⟩
abbrev S1x512 : Shape := ⟨2, ![1, 512]⟩
abbrev S262144x512 : Shape := ⟨2, ![262144, 512]⟩
abbrev S256x512 : Shape := ⟨2, ![256, 512]⟩
abbrev S512x1 : Shape := ⟨2, ![512, 1]⟩
abbrev S1x262144 : Shape := ⟨2, ![1, 262144]⟩
abbrev S512x262144 : Shape := ⟨2, ![512, 262144]⟩
abbrev S256x262144 : Shape := ⟨2, ![256, 262144]⟩

abbrev nBuf : Space → Nat
  | .hbm => 61
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S512x256, .f32⟩
  | .hbm, ⟨2, _⟩ => ⟨S262144x256, .f32⟩
  | .hbm, ⟨3, _⟩ => ⟨S_, .f32⟩
  | .hbm, ⟨4, _⟩ => ⟨S262144, .f32⟩
  | .hbm, ⟨5, _⟩ => ⟨S262144x1, .f32⟩
  | .hbm, ⟨6, _⟩ => ⟨S512x256, .f32⟩
  | .hbm, ⟨7, _⟩ => ⟨S_, .f32⟩
  | .hbm, ⟨8, _⟩ => ⟨S512, .f32⟩
  | .hbm, ⟨9, _⟩ => ⟨S1x512, .f32⟩
  | .hbm, ⟨10, _⟩ => ⟨S262144x512, .f32⟩
  | .hbm, ⟨11, _⟩ => ⟨S262144x512, .f32⟩
  | .hbm, ⟨12, _⟩ => ⟨S262144x512, .f32⟩
  | .hbm, ⟨13, _⟩ => ⟨S256x512, .f32⟩
  | .hbm, ⟨14, _⟩ => ⟨S262144x512, .f32⟩
  | .hbm, ⟨15, _⟩ => ⟨S_, .f32⟩
  | .hbm, ⟨16, _⟩ => ⟨S262144x512, .f32⟩
  | .hbm, ⟨17, _⟩ => ⟨S262144x512, .f32⟩
  | .hbm, ⟨18, _⟩ => ⟨S262144x512, .f32⟩
  | .hbm, ⟨19, _⟩ => ⟨S_, .f32⟩
  | .hbm, ⟨20, _⟩ => ⟨S262144x512, .f32⟩
  | .hbm, ⟨21, _⟩ => ⟨S262144x512, .f32⟩
  | .hbm, ⟨22, _⟩ => ⟨S262144x512, .f32⟩
  | .hbm, ⟨23, _⟩ => ⟨S512x256, .f32⟩
  | .hbm, ⟨24, _⟩ => ⟨S_, .f32⟩
  | .hbm, ⟨25, _⟩ => ⟨S512, .f32⟩
  | .hbm, ⟨26, _⟩ => ⟨S512x1, .f32⟩
  | .hbm, ⟨27, _⟩ => ⟨S262144x256, .f32⟩
  | .hbm, ⟨28, _⟩ => ⟨S_, .f32⟩
  | .hbm, ⟨29, _⟩ => ⟨S262144, .f32⟩
  | .hbm, ⟨30, _⟩ => ⟨S1x262144, .f32⟩
  | .hbm, ⟨31, _⟩ => ⟨S512x262144, .f32⟩
  | .hbm, ⟨32, _⟩ => ⟨S512x262144, .f32⟩
  | .hbm, ⟨33, _⟩ => ⟨S512x262144, .f32⟩
  | .hbm, ⟨34, _⟩ => ⟨S256x262144, .f32⟩
  | .hbm, ⟨35, _⟩ => ⟨S512x262144, .f32⟩
  | .hbm, ⟨36, _⟩ => ⟨S_, .f32⟩
  | .hbm, ⟨37, _⟩ => ⟨S512x262144, .f32⟩
  | .hbm, ⟨38, _⟩ => ⟨S512x262144, .f32⟩
  | .hbm, ⟨39, _⟩ => ⟨S512x262144, .f32⟩
  | .hbm, ⟨40, _⟩ => ⟨S_, .f32⟩
  | .hbm, ⟨41, _⟩ => ⟨S512x262144, .f32⟩
  | .hbm, ⟨42, _⟩ => ⟨S512x262144, .f32⟩
  | .hbm, ⟨43, _⟩ => ⟨S512x262144, .f32⟩
  | .hbm, ⟨44, _⟩ => ⟨S_, .f32⟩
  | .hbm, ⟨45, _⟩ => ⟨S262144, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S512, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_5 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_6 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_7 : Ref sig .tc := ⟨.hbm, 44, rfl⟩
abbrev main_v34 : Ref sig .tc := ⟨.hbm, 45, rfl⟩
abbrev main_cst_8 : Ref sig .tc := ⟨.hbm, 46, rfl⟩
abbrev main_v35 : Ref sig .tc := ⟨.hbm, 47, rfl⟩
abbrev main_cst_9 : Ref sig .tc := ⟨.hbm, 48, rfl⟩
abbrev main_v36 : Ref sig .tc := ⟨.hbm, 49, rfl⟩
abbrev main_cst_10 : Ref sig .tc := ⟨.hbm, 50, rfl⟩
abbrev main_v37 : Ref sig .tc := ⟨.hbm, 51, rfl⟩
abbrev main_cst_11 : Ref sig .tc := ⟨.hbm, 52, rfl⟩
abbrev main_v38 : Ref sig .tc := ⟨.hbm, 53, rfl⟩
abbrev main_cst_12 : Ref sig .tc := ⟨.hbm, 54, rfl⟩
abbrev main_v39 : Ref sig .tc := ⟨.hbm, 55, rfl⟩
abbrev main_cst_13 : Ref sig .tc := ⟨.hbm, 56, rfl⟩
abbrev main_v40 : Ref sig .tc := ⟨.hbm, 57, rfl⟩
abbrev main_cst_14 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]

class Facts₀ : Prop where
  reducesTo_S262144x256_S262144_d1 : S262144x256.ReducesTo [1] S262144
  h_S_ : 0 < S_.numel
  bcast_S262144_S262144x1_0 : S262144.BroadcastsInDim S262144x1 (![0] : Fin 1 → Fin S262144x1.rank)
  reducesTo_S512x256_S512_d1 : S512x256.ReducesTo [1] S512
  bcast_S512_S1x512_1 : S512.BroadcastsInDim S1x512 (![1] : Fin 1 → Fin S1x512.rank)
  bcast_S262144x1_S262144x512_0_1 : S262144x1.BroadcastsInDim S262144x512 (![0, 1] : Fin 2 → Fin S262144x512.rank)
  bcast_S1x512_S262144x512_0_1 : S1x512.BroadcastsInDim S262144x512 (![0, 1] : Fin 2 → Fin S262144x512.rank)
  transposes_S512x256_S256x512_1_0 : S512x256.Transposes [1, 0] S256x512
  bcast_S_S262144x512 : S_.BroadcastsInDim S262144x512 (![] : Fin 0 → Fin S262144x512.rank)
  bcast_S512_S512x1_0 : S512.BroadcastsInDim S512x1 (![0] : Fin 1 → Fin S512x1.rank)
  bcast_S262144_S1x262144_1 : S262144.BroadcastsInDim S1x262144 (![1] : Fin 1 → Fin S1x262144.rank)
  bcast_S512x1_S512x262144_0_1 : S512x1.BroadcastsInDim S512x262144 (![0, 1] : Fin 2 → Fin S512x262144.rank)
  bcast_S1x262144_S512x262144_0_1 : S1x262144.BroadcastsInDim S512x262144 (![0, 1] : Fin 2 → Fin S512x262144.rank)
  transposes_S262144x256_S256x262144_1_0 : S262144x256.Transposes [1, 0] S256x262144
  bcast_S_S512x262144 : S_.BroadcastsInDim S512x262144 (![] : Fin 0 → Fin S512x262144.rank)
  reducesTo_S262144x512_S262144_d1 : S262144x512.ReducesTo [1] S262144
  reducesTo_S262144_S_d0 : S262144.ReducesTo [0] S_
  reducesTo_S512x262144_S512_d1 : S512x262144.ReducesTo [1] S512
  reducesTo_S512_S_d0 : S512.ReducesTo [0] S_
  dot_S262144x256_S256x512_S262144x512_1_0_0_1_n_n_wf : DotDims.WF S262144x256 S256x512 S262144x512 [1] [0] [0] [1] [] []
  dot_S512x256_S256x262144_S512x262144_1_0_0_1_n_n_wf : DotDims.WF S512x256 S256x262144 S512x262144 [1] [0] [0] [1] [] []

variable [Facts₀]

def dot_S262144x256_S256x512_S262144x512_1_0_0_1_n_n : DotDims S262144x256 S256x512 S262144x512 where
  lhsContracting := [1]
  rhsContracting := [0]
  lhsNonContracting := [0]
  rhsNonContracting := [1]
  lhsBatch := []
  rhsBatch := []
  wf := dot_S262144x256_S256x512_S262144x512_1_0_0_1_n_n_wf
def dot_S512x256_S256x262144_S512x262144_1_0_0_1_n_n : DotDims S512x256 S256x262144 S512x262144 where
  lhsContracting := [1]
  rhsContracting := [0]
  lhsNonContracting := [0]
  rhsNonContracting := [1]
  lhsBatch := []
  rhsBatch := []
  wf := dot_S512x256_S256x262144_S512x262144_1_0_0_1_n_n_wf

class Facts : Prop extends Facts₀ where

variable [Facts]
-- ==== Proof.Pieces.lean ====
import proofs.«113680_j20349555048831_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

/-!
  What each control case of the kernel body leaves in the two carried scratch buffers and, at a half's last tile, in
  the two output blocks — read back from the stores the run found, as the body's payload terms, at any float instance.

  At a half's first tile the body first stores +∞ into the column-minimum scratch and 0 into the row-sum scratch,
  then updates both; at every other tile it updates what the tile before left. The update of the column minima is
  `k0_pay1 (k0_pay6 x0 x1) ·` (the elementwise minimum with the tile's column minima), that of the row sum
  `k0_pay5 x0 x1 ·` (adding the tile's sum of row minima). At a half's last tile the two output blocks receive the
  scratch buffers as just updated.
-/

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First tile of a half, column minima: +∞ stored, read back, and updated by the tile. -/
theorem sA0 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x1x512 .f32) (harg4 : arg4.IsWhole) (arg5 : Memref sig .tc .vmem S1x1x1 .f32) (harg5 : arg5.IsWhole) (arg6 : Memref sig .tc .vmem S1x1x512 .f32) (harg6 : arg6.IsWhole) (arg7 : Memref sig .tc .vmem S1x1x1 .f32) (harg7 : arg7.IsWhole) (hc0 : cond0_0 i) (hc1 : ¬cond0_1 i) (x0 : Vec F S2048x256 .f32) (x1 : Vec F S512x256 .f32) :
    sout0_A_0 c i arg2 harg2 arg3 harg3 arg4 harg4 arg5 harg5 arg6 harg6 arg7 harg7 hc0 hc1 x0 x1 = k0_pay1 (k0_pay6 x0 x1) (k0_pay2 (F := F)) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S1x1x512) hz3, View.readCov_unit_zero (S := S1x1x512) _ hz3]
  simp only [View.readAt_eq_ld, harg2.read_unread, harg3.read_unread, harg6.read_unread, harg7.read_unread, View.ld_unit_zero (S := S2048x256) hz2, View.ld_unit_zero (S := S512x256) hz2, View.ld_unit_zero (S := S1x1x512) hz3, View.ld_unit_zero (S := S1x1x1) hz3]

/-- First tile of a half, row sum: 0 stored, read back, and the tile's sum added. -/
theorem sA1 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x1x512 .f32) (harg4 : arg4.IsWhole) (arg5 : Memref sig .tc .vmem S1x1x1 .f32) (harg5 : arg5.IsWhole) (arg6 : Memref sig .tc .vmem S1x1x512 .f32) (harg6 : arg6.IsWhole) (arg7 : Memref sig .tc .vmem S1x1x1 .f32) (harg7 : arg7.IsWhole) (hc0 : cond0_0 i) (hc1 : ¬cond0_1 i) (x0 : Vec F S2048x256 .f32) (x1 : Vec F S512x256 .f32) :
    sout0_A_1 c i arg2 harg2 arg3 harg3 arg4 harg4 arg5 harg5 arg6 harg6 arg7 harg7 hc0 hc1 x0 x1 = k0_pay5 x0 x1 (k0_pay3 (F := F)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg6.read_unread, harg7.read_unread, View.ld_unit_zero (S := S2048x256) hz2, View.ld_unit_zero (S := S512x256) hz2, View.ld_unit_zero (S := S1x1x512) hz3, View.ld_unit_zero (S := S1x1x1) hz3]

/-- A middle tile, column minima: what the tile before left, updated by the tile. -/
theorem sB0 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x1x512 .f32) (harg4 : arg4.IsWhole) (arg5 : Memref sig .tc .vmem S1x1x1 .f32) (harg5 : arg5.IsWhole) (arg6 : Memref sig .tc .vmem S1x1x512 .f32) (harg6 : arg6.IsWhole) (arg7 : Memref sig .tc .vmem S1x1x1 .f32) (harg7 : arg7.IsWhole) (hc0 : ¬cond0_0 i) (hc1 : ¬cond0_1 i) (x0 : Vec F S2048x256 .f32) (x1 : Vec F S512x256 .f32) (xs0 : Vec F S1x1x512 .f32) (xs1 : Vec F S1x1x1 .f32) :
    sout0_B_0 c i arg2 harg2 arg3 harg3 arg4 harg4 arg5 harg5 arg6 harg6 arg7 harg7 hc0 hc1 x0 x1 xs0 xs1 = k0_pay1 (k0_pay6 x0 x1) xs0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  sl_unfold_words
  rw [View.canon_unit_zero (S := S1x1x512) hz3]
  simp only [View.readAt_eq_ld, harg2.read_unread, harg3.read_unread, harg6.read_unread, harg7.read_unread, View.ld_unit_zero (S := S2048x256) hz2, View.ld_unit_zero (S := S512x256) hz2, View.ld_unit_zero (S := S1x1x512) hz3, View.ld_unit_zero (S := S1x1x1) hz3]

/-- A middle tile, row sum. -/
theorem sB1 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x1x512 .f32) (harg4 : arg4.IsWhole) (arg5 : Memref sig .tc .vmem S1x1x1 .f32) (harg5 : arg5.IsWhole) (arg6 : Memref sig .tc .vmem S1x1x512 .f32) (harg6 : arg6.IsWhole) (arg7 : Memref sig .tc .vmem S1x1x1 .f32) (harg7 : arg7.IsWhole) (hc0 : ¬cond0_0 i) (hc1 : ¬cond0_1 i) (x0 : Vec F S2048x256 .f32) (x1 : Vec F S512x256 .f32) (xs0 : Vec F S1x1x512 .f32) (xs1 : Vec F S1x1x1 .f32) :
    sout0_B_1 c i arg2 harg2 arg3 harg3 arg4 harg4 arg5 harg5 arg6 harg6 arg7 harg7 hc0 hc1 x0 x1 xs0 xs1 = k0_pay5 x0 x1 xs1 := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  sl_unfold_words
  rw [View.canon_unit_zero (S := S1x1x1) hz3]
  simp only [View.readAt_eq_ld, harg2.read_unread, harg3.read_unread, harg6.read_unread, harg7.read_unread, View.ld_unit_zero (S := S2048x256) hz2, View.ld_unit_zero (S := S512x256) hz2, View.ld_unit_zero (S := S1x1x512) hz3, View.ld_unit_zero (S := S1x1x1) hz3]

/-- A half's last tile, column minima. -/
theorem sC0 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x1x512 .f32) (harg4 : arg4.IsWhole) (arg5 : Memref sig .tc .vmem S1x1x1 .f32) (harg5 : arg5.IsWhole) (arg6 : Memref sig .tc .vmem S1x1x512 .f32) (harg6 : arg6.IsWhole) (arg7 : Memref sig .tc .vmem S1x1x1 .f32) (harg7 : arg7.IsWhole) (hc0 : ¬cond0_0 i) (hc1 : cond0_1 i) (x0 : Vec F S2048x256 .f32) (x1 : Vec F S512x256 .f32) (xs0 : Vec F S1x1x512 .f32) (xs1 : Vec F S1x1x1 .f32) :
    sout0_C_0 c i arg2 harg2 arg3 harg3 arg4 harg4 arg5 harg5 arg6 harg6 arg7 harg7 hc0 hc1 x0 x1 xs0 xs1 = k0_pay1 (k0_pay6 x0 x1) xs0 := by
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  sl_unfold_words
  rw [View.canon_unit_zero (S := S1x1x512) hz3]
  simp only [View.readAt_eq_ld, harg2.read_unread, harg3.read_unread, harg6.read_unread, harg7.read_unread, View.ld_unit_zero (S := S2048x256) hz2, View.ld_unit_zero (S := S512x256) hz2, View.ld_unit_zero (S := S1x1x512) hz3, View.ld_unit_zero (S := S1x1x1) hz3]

/-- A half's last tile, row sum. -/
theorem sC1 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x1x512 .f32) (harg4 : arg4.IsWhole) (arg5 : Memref sig .tc .vmem S1x1x1 .f32) (harg5 : arg5.IsWhole) (arg6 : Memref sig .tc .vmem S1x1x512 .f32) (harg6 : arg6.IsWhole) (arg7 : Memref sig .tc .vmem S1x1x1 .f32) (harg7 : arg7.IsWhole) (hc0 : ¬cond0_0 i) (hc1 : cond0_1 i) (x0 : Vec F S2048x256 .f32) (x1 : Vec F S512x256 .f32) (xs0 : Vec F S1x1x512 .f32) (xs1 : Vec F S1x1x1 .f32) :
    sout0_C_1 c i arg2 harg2 arg3 harg3 arg4 harg4 arg5 harg5 arg6 harg6 arg7 harg7 hc0 hc1 x0 x1 xs0 xs1 = k0_pay5 x0 x1 xs1 := by
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  sl_unfold_words
  rw [View.canon_unit_zero (S := S1x1x1) hz3]
  simp only [View.readAt_eq_ld, harg2.read_unread, harg3.read_unread, harg6.read_unread, harg7.read_unread, View.ld_unit_zero (S := S2048x256) hz2, View.ld_unit_zero (S := S512x256) hz2, View.ld_unit_zero (S := S1x1x512) hz3, View.ld_unit_zero (S := S1x1x1) hz3]

/-- A half's last tile: the column-minimum block written out is the scratch as just updated. -/
theorem oC2 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x1x512 .f32) (harg4 : arg4.IsWhole) (arg5 : Memref sig .tc .vmem S1x1x1 .f32) (harg5 : arg5.IsWhole) (arg6 : Memref sig .tc .vmem S1x1x512 .f32) (harg6 : arg6.IsWhole) (arg7 : Memref sig .tc .vmem S1x1x1 .f32) (harg7 : arg7.IsWhole) (hc0 : ¬cond0_0 i) (hc1 : cond0_1 i) (x0 : Vec F S2048x256 .f32) (x1 : Vec F S512x256 .f32) (xs0 : Vec F S1x1x512 .f32) (xs1 : Vec F S1x1x1 .f32) :
    out0_C_2 c i arg2 harg2 arg3 harg3 arg4 harg4 arg5 harg5 arg6 harg6 arg7 harg7 hc0 hc1 x0 x1 xs0 xs1 = k0_pay1 (k0_pay6 x0 x1) xs0 := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [View.canon_unit_zero (S := S1x1x512) hz3, View.readCov_unit_zero (S := S1x1x512) _ hz3]
  simp only [View.readAt_eq_ld, harg2.read_unread, harg3.read_unread, harg6.read_unread, harg7.read_unread, View.ld_unit_zero (S := S2048x256) hz2, View.ld_unit_zero (S := S512x256) hz2, View.ld_unit_zero (S := S1x1x512) hz3, View.ld_unit_zero (S := S1x1x1) hz3]

/-- A half's last tile: the row-sum block written out is the scratch as just updated. -/
theorem oC3 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x1x512 .f32) (harg4 : arg4.IsWhole) (arg5 : Memref sig .tc .vmem S1x1x1 .f32) (harg5 : arg5.IsWhole) (arg6 : Memref sig .tc .vmem S1x1x512 .f32) (harg6 : arg6.IsWhole) (arg7 : Memref sig .tc .vmem S1x1x1 .f32) (harg7 : arg7.IsWhole) (hc0 : ¬cond0_0 i) (hc1 : cond0_1 i) (x0 : Vec F S2048x256 .f32) (x1 : Vec F S512x256 .f32) (xs0 : Vec F S1x1x512 .f32) (xs1 : Vec F S1x1x1 .f32) :
    out0_C_3 c i arg2 harg2 arg3 harg3 arg4 harg4 arg5 harg5 arg6 harg6 arg7 harg7 hc0 hc1 x0 x1 xs0 xs1 = k0_pay5 x0 x1 xs1 := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_words
  rw [View.canon_unit_zero (S := S1x1x1) hz3, View.readCov_unit_zero (S := S1x1x1) _ hz3]
  simp only [View.readAt_eq_ld, harg2.read_unread, harg3.read_unread, harg6.read_unread, harg7.read_unread, View.ld_unit_zero (S := S2048x256) hz2, View.ld_unit_zero (S := S512x256) hz2, View.ld_unit_zero (S := S1x1x512) hz3, View.ld_unit_zero (S := S1x1x1) hz3]

end Cert.KernelIdeal.Pieces

end
-- ==== Proof.Steps.lean ====
import proofs.«113680_j20349555048831_1_alg».proof.Proof.Gen.KernelIdeal.Frame
import Idealize.ShloMosaic.Lib.Pipeline.Value
import Idealize.ShloMosaic.Lib.Tactic
import proofs.«113680_j20349555048831_1_alg».proof.Proof.Pieces

noncomputable section

open Idealize.ShloMosaic Idealize.ShloMosaic.TcCoe Idealize.SL.Sem
open Idealize.ShloMosaic.Pipeline (Dat)

/-!
  The two carried accumulators from one tile to the next, as the body's payload terms of the tile's input blocks.

  Grid point `t` (0 … 127) handles tile `t`: its block of 2048 rows and the whole prototype array. At a half's first
  tile (`t % 64 = 0`) the accumulators restart from +∞ resp. 0; at every other tile they continue from what tile
  `t - 1` left; at a half's last tile (`t % 64 = 63`) the two output blocks receive the accumulators.
-/

namespace Cert.KernelIdeal.Steps

open Cert.KernelIdeal Cert.KernelIdeal.Gen Cert.KernelIdeal.Pieces

variable {F : FTy → Type} [FloatOps F]
variable (m : (ℓ : Loc nD τ sig) → Buf (Elt F) ℓ)

/-- Tile `t`'s block of rows and the prototype array as the body loads them. -/
abbrev xblk (c : Dev nD) (t : Fin cfg0.N) : Vec F S2048x256 .f32 := iblk m c 0 t
abbrev wblk (c : Dev nD) (t : Fin cfg0.N) : Vec F S512x256 .f32 := iblk m c 1 t

/-- The column-minimum and row-sum accumulators after point `n`. -/
abbrev colAcc (c : Dev nD) (n : ℕ) (h : n < cfg0.N) : Vec F S1x1x512 .f32 := (outsAt0 m c n h).2.2.1
abbrev sumAcc (c : Dev nD) (n : ℕ) (h : n < cfg0.N) : Vec F S1x1x1 .f32 := (outsAt0 m c n h).2.2.2

theorem colAcc_first (c : Dev nD) (t : Fin cfg0.N) (h0 : t.val % 64 = 0) :
    colAcc m c t.val t.isLt = k0_pay1 (k0_pay6 (xblk m c t) (wblk m c t)) (k0_pay2 (F := F)) := by
  have h1 : ¬t.val % 64 = 63 := by omega
  unfold colAcc
  rw [outsAt0_A m c t h0 h1]; dsimp only
  exact sA0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)

theorem sumAcc_first (c : Dev nD) (t : Fin cfg0.N) (h0 : t.val % 64 = 0) :
    sumAcc m c t.val t.isLt = k0_pay5 (xblk m c t) (wblk m c t) (k0_pay3 (F := F)) := by
  have h1 : ¬t.val % 64 = 63 := by omega
  unfold sumAcc
  rw [outsAt0_A m c t h0 h1]; dsimp only
  exact sA1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)

theorem colAcc_step (c : Dev nD) (t : Fin cfg0.N) (h0 : ¬t.val % 64 = 0) :
    colAcc m c t.val t.isLt
      = k0_pay1 (k0_pay6 (xblk m c t) (wblk m c t)) (colAcc m c (t.val - 1) (Nat.lt_of_le_of_lt (Nat.sub_le _ _) t.isLt)) := by
  unfold colAcc
  by_cases h1 : t.val % 64 = 63
  · rw [outsAt0_C m c t h0 h1]; dsimp only
    exact sC0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2
  · rw [outsAt0_B m c t h0 h1]; dsimp only
    exact sB0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

theorem sumAcc_step (c : Dev nD) (t : Fin cfg0.N) (h0 : ¬t.val % 64 = 0) :
    sumAcc m c t.val t.isLt
      = k0_pay5 (xblk m c t) (wblk m c t) (sumAcc m c (t.val - 1) (Nat.lt_of_le_of_lt (Nat.sub_le _ _) t.isLt)) := by
  unfold sumAcc
  by_cases h1 : t.val % 64 = 63
  · rw [outsAt0_C m c t h0 h1]; dsimp only
    exact sC1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2
  · rw [outsAt0_B m c t h0 h1]; dsimp only
    exact sB1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

/-- At a half's last tile the column-minimum output block is the accumulator after that tile. -/
theorem out2_last (c : Dev nD) (t : Fin cfg0.N) (h1 : t.val % 64 = 63) :
    (outsAt0 m c t.val t.isLt).1 = colAcc m c t.val t.isLt := by
  have h0 : ¬t.val % 64 = 0 := by omega
  unfold colAcc
  rw [outsAt0_C m c t h0 h1]; dsimp only
  exact (oC2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2).trans
    (sC0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2).symm

/-- At a half's last tile the row-sum output block is the accumulator after that tile. -/
theorem out3_last (c : Dev nD) (t : Fin cfg0.N) (h1 : t.val % 64 = 63) :
    (outsAt0 m c t.val t.isLt).2.1 = sumAcc m c t.val t.isLt := by
  have h0 : ¬t.val % 64 = 0 := by omega
  unfold sumAcc
  rw [outsAt0_C m c t h0 h1]; dsimp only
  exact (oC3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2).trans
    (sC1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2).symm

end Cert.KernelIdeal.Steps

end
-- ==== Proof.Blocks.lean ====
import proofs.«113680_j20349555048831_1_alg».proof.Proof.Gen.KernelIdeal.Frame
import Idealize.ShloMosaic.Lib.Pipeline.Value
import Idealize.ShloMosaic.Lib.Tactic
import proofs.«113680_j20349555048831_1_alg».proof.Proof.Steps
import Idealize.ShloMosaic.Lib.ValueIdx

noncomputable section

open Idealize.ShloMosaic Idealize.ShloMosaic.TcCoe Idealize.SL.Sem
open Idealize.ShloMosaic.Pipeline (Dat)

/-!
  The input blocks read at an index: tile `t`'s block holds rows `2048·t … 2048·t + 2047` of the row array, every
  column; the prototype block is the whole prototype array at every point. The two output windows write block
  `t / 64` (the half) at the points where they write at all.
-/

namespace Cert.KernelIdeal.Blocks

open Cert.KernelIdeal Cert.KernelIdeal.Gen Cert.KernelIdeal.Steps Idealize.ShloMosaic.ValueIdx

variable {F : FTy → Type} [FloatOps F]
variable (m : (ℓ : Loc nD τ sig) → Buf (Elt F) ℓ)

/-- The printed index maps over the grid: the row window's block index is the point itself, the prototype
    window's is zero, the two output windows' is the half `t / 64`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 3) = t.val / 64 ∧ win0_2.index t (1 : Fin 3) = 0 ∧ win0_2.index t (2 : Fin 3) = 0
    ∧ win0_3.index t (0 : Fin 3) = t.val / 64 ∧ win0_3.index t (1 : Fin 3) = 0 ∧ win0_3.index t (2 : Fin 3) = 0 :=
  (by decide +kernel : ∀ t : Fin grid0.N, _)

theorem lt_N (t : Fin cfg0.N) : t.val < 128 := lt_of_lt_of_eq t.isLt (show cfg0.N = 128 from N_0)

/-- Row `r` of tile `t`'s block is row `2048·t + r` of the array. -/
theorem xblk_apply (c : Dev nD) (t : Fin cfg0.N) (r : Fin 2048) (d : Fin 256) :
    xblk m c t (ix2 r d)
      = V m c main_arg0 (ix2 (⟨t.val * 2048 + r.val, by have := lt_N t; have := r.isLt; omega⟩ : Fin 262144) d) := by
  obtain ⟨e0, e1, -⟩ := idx_facts t
  unfold xblk iblk
  rw [View.read_apply]
  show V m c main_arg0 _ = V m c main_arg0 _
  congr 1
  funext a
  apply Fin.ext
  match a with
  | ⟨0, _⟩ => show win0_0.index t (0 : Fin 2) * 2048 + 1 * r.val = t.val * 2048 + r.val; rw [e0]; omega
  | ⟨1, _⟩ => show win0_0.index t (1 : Fin 2) * 256 + 1 * d.val = d.val; rw [e1]; omega

/-- The prototype block is the prototype array. -/
theorem wblk_apply (c : Dev nD) (t : Fin cfg0.N) (p : Fin 512) (d : Fin 256) :
    wblk m c t (ix2 p d) = V m c main_arg1 (ix2 p d) := by
  obtain ⟨-, -, e0, e1, -⟩ := idx_facts t
  unfold wblk iblk
  rw [View.read_apply]
  show V m c main_arg1 _ = V m c main_arg1 _
  congr 1
  funext a
  apply Fin.ext
  match a with
  | ⟨0, _⟩ => show win0_1.index t (0 : Fin 2) * 512 + 1 * p.val = p.val; rw [e0]; omega
  | ⟨1, _⟩ => show win0_1.index t (1 : Fin 2) * 256 + 1 * d.val = d.val; rw [e1]; omega

end Cert.KernelIdeal.Blocks

end
-- ==== Proof.Spec.lean ====
/-
  The prototype-distance loss over the extended reals, stated once for both programs.

  For rows `a`, `b` of length 256 the distance is `dist a b = sqrt (max (|a|² + |b|² - 2·⟨a, b⟩) 0)`, the squared
  norms and the inner product plain sums over the 256 coordinates. With `z` of 262144 rows and `w` of 512 rows the
  loss is `reg · (Σₙ minₚ dist zₙ wₚ) / N + reg · (Σₚ minₙ dist wₚ zₙ) / P` (`refLoss`), every minimum taken from +∞.
  The tiled form (`tiledLoss`) cuts the 262144 rows into 128 tiles of 2048 rows, tile `j` holding rows
  `2048·j … 2048·j + 2047`, and the tiles into two halves of 64: per tile the column minima over the tile's rows
  (`tileColMin`) and the sum of the tile's row minima (`tileRowSum`), per half their minimum resp. sum over the
  half's 64 tiles, and at the end the minimum resp. sum over the two halves.
-/
import Idealize.ShloMosaic.PureOps.Ideal
import Idealize.ShloMosaic.Lib.ValueIdx

noncomputable section

open scoped BigOperators

namespace ProtoLoss

open Idealize.ShloMosaic Idealize.ShloMosaic.ValueIdx

/-- The data: 262144 rows and 512 prototype rows, each of 256 extended reals. -/
abbrev ZArr : Type := (⟨2, ![262144, 256]⟩ : Shape).Idx → EReal
abbrev WArr : Type := (⟨2, ![512, 256]⟩ : Shape).Idx → EReal

/-- The float words both programs carry, read at the ideal values and never evaluated: 2, +∞, the weight 0.05 of each
    term, and the two counts 262144 and 512 the means divide by. -/
abbrev cTwo : EReal := Ideal.ofBits .f32 0x40000000#32
abbrev cInf : EReal := Ideal.ofBits .f32 0x7F800000#32
abbrev cReg : EReal := Ideal.ofBits .f32 0x3D4CCCCD#32
abbrev cN : EReal := Ideal.ofBits .f32 0x48800000#32
abbrev cP : EReal := Ideal.ofBits .f32 0x44000000#32

/-- Squared norm and inner product of rows, and the distance of two rows. -/
def sqNorm (a : Fin 256 → EReal) : EReal := ∑ d, a d * a d
def dotp (a b : Fin 256 → EReal) : EReal := ∑ d, a d * b d
def dist (a b : Fin 256 → EReal) : EReal := Ideal.sqrt (max ((sqNorm a + sqNorm b) - cTwo * dotp a b) 0)

/-- The minimum of a finite family, from +∞. -/
def minOver {n : ℕ} (f : Fin n → EReal) : EReal := Finset.univ.fold min cInf f

/-- Row `n` of `z`, row `p` of `w`. -/
def zrow (z : ZArr) (n : Fin 262144) : Fin 256 → EReal := fun d => z (ix2 n d)
def wrow (w : WArr) (p : Fin 512) : Fin 256 → EReal := fun d => w (ix2 p d)

/-- The loss as the reference states it. -/
def refLoss (z : ZArr) (w : WArr) : EReal :=
  cReg * Ideal.div (∑ n : Fin 262144, minOver fun p : Fin 512 => dist (zrow z n) (wrow w p)) cN
  + cReg * Ideal.div (∑ p : Fin 512, minOver fun n : Fin 262144 => dist (wrow w p) (zrow z n)) cP

/-- Row `r` of tile `j`, as a row of `z`. -/
def rowOf (j : Fin 128) (r : Fin 2048) : Fin 262144 := ⟨j.val * 2048 + r.val, by have := j.isLt; have := r.isLt; omega⟩
/-- Tile `q` of half `h`. -/
def tileOf (h : Fin 2) (q : Fin 64) : Fin 128 := ⟨h.val * 64 + q.val, by have := h.isLt; have := q.isLt; omega⟩

/-- Over one tile of rows `x` (2048 rows) against the prototypes `y`: the column minima and the sum of the row minima. -/
def blockColMin (x : Fin 2048 → Fin 256 → EReal) (y : Fin 512 → Fin 256 → EReal) (p : Fin 512) : EReal :=
  minOver fun r : Fin 2048 => dist (x r) (y p)
def blockRowSum (x : Fin 2048 → Fin 256 → EReal) (y : Fin 512 → Fin 256 → EReal) : EReal :=
  ∑ r : Fin 2048, minOver fun p : Fin 512 => dist (x r) (y p)

def tileColMin (z : ZArr) (w : WArr) (j : Fin 128) (p : Fin 512) : EReal :=
  blockColMin (fun r => zrow z (rowOf j r)) (wrow w) p
def tileRowSum (z : ZArr) (w : WArr) (j : Fin 128) : EReal :=
  blockRowSum (fun r => zrow z (rowOf j r)) (wrow w)

/-- Per half: the column minima over its 64 tiles, the sum of its 64 tiles' sums. -/
def halfColMin (z : ZArr) (w : WArr) (h : Fin 2) (p : Fin 512) : EReal := minOver fun q : Fin 64 => tileColMin z w (tileOf h q) p
def halfRowSum (z : ZArr) (w : WArr) (h : Fin 2) : EReal := ∑ q : Fin 64, tileRowSum z w (tileOf h q)

/-- The loss as the tiled computation states it. -/
def tiledLoss (z : ZArr) (w : WArr) : EReal :=
  cReg * Ideal.div (∑ h : Fin 2, halfRowSum z w h) cN
  + cReg * Ideal.div (∑ p : Fin 512, minOver fun h : Fin 2 => halfColMin z w h p) cP

end ProtoLoss

end
-- ==== Proof.Payload.lean ====
/-
  The kernel's six payloads read at an index, at the ideal values.

  Each payload is a pure term over the loaded blocks. Read at one index over the extended reals: the two
  initial values are +∞ (every column) and 0; the running column minimum is the minimum of the stored value and
  the tile's column minimum; the distance matrix at (r, p) is `dist` of row r of the tile and prototype row p;
  its column minima are `blockColMin` and the sum of its row minima, added to the stored value, is `blockRowSum`.
-/
import proofs.«113680_j20349555048831_1_alg».proof.Proof.Spec
import proofs.«113680_j20349555048831_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx ProtoLoss

variable [Cert.KernelIdeal.Facts]

/-! ## The two initial values -/

/-- The column minima start at +∞. -/
theorem pay2_apply (i : S1x1x512.Idx) : k0_pay2 (F := Ideal) i = ⊤ := by
  unfold k0_pay2
  rw [shapeCast_self]
  show Ideal.ofBits .f32 0x7F800000#32 = ⊤
  simp [Ideal.ofBits, Ideal.ieee]

/-- The sum of row minima starts at 0. -/
theorem pay3_apply (i : S1x1x1.Idx) : k0_pay3 (F := Ideal) i = 0 := by
  unfold k0_pay3
  rw [shapeCast_self]
  exact Ideal.ofBits_zero_f32

/-! ## The running column minimum -/

/-- A `[b]` vector cast to `[1, 1, b]` reads, at `(u, v, p)`, the operand at `p`. -/
theorem cast_b_11b {α : Type} {b : ℕ} (x : (⟨1, ![b]⟩ : Shape).Idx → α) (h1 : (⟨1, ![b]⟩ : Shape).ShapeCasts ⟨2, ![1, b]⟩)
    (h2 : (⟨2, ![1, b]⟩ : Shape).ShapeCasts ⟨3, ![1, 1, b]⟩) (u v : Fin 1) (p : Fin b) :
    shapeCast ⟨3, ![1, 1, b]⟩ (shapeCast ⟨2, ![1, b]⟩ x h1) h2 (ix3 u v p) = x (ix1 p) :=
  (shapeCast_ab_1ab_apply _ h2 u v p).trans (shapeCast_a_1a_apply x h1 v p)

/-- The stored column minimum against the tile's: the minimum of the two at each column. -/
theorem pay1_apply (v35 : FVec Ideal S512 .f32) (v38 : Vec Ideal S1x1x512 .f32) (p : Fin 512) :
    k0_pay1 (F := Ideal) v35 v38 (ix3 (0 : Fin 1) (0 : Fin 1) p)
      = min (v38 (ix3 (0 : Fin 1) (0 : Fin 1) p)) (v35 (ix1 p)) := by
  unfold k0_pay1
  rw [shapeCast_self]
  refine (minimumf_apply _ _ _).trans ?_
  exact congrArg (min _) (cast_b_11b v35 _ _ 0 0 p)

/-! ## Reductions over one axis of a matrix, read at an index -/

/-- A lane sum of an `[a, b]` matrix reads, at row `r`, the sum over the row. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src _ h hφ hacc (ix1 r)).trans ?_
  refine Finset.sum_congr rfl fun k _ => congrArg src ?_
  funext c
  refine Fin.ext ?_
  match c with
  | ⟨0, _⟩ => rfl
  | ⟨1, _⟩ => rfl

/-- A minimum along the rows of an `[a, b]` matrix reads, at row `r`, the minimum from +∞ over the row. -/
theorem rowMin_apply {a b : ℕ} (src : FVec Ideal ⟨2, ![a, b]⟩ .f32) (h : (⟨2, ![a, b]⟩ : Shape).Reduces [1] ⟨1, ![a]⟩)
    (hφ : FKind.Formats .f32) (hacc : (0x7F800000#32 : BitVec 32) = FKind.minimumf.neutral .f32 hφ) (r : Fin a) :
    multiReduction .minimumf [1] ⟨1, ![a]⟩ src 0x7F800000#32 h hφ hacc (ix1 r) = minOver fun p : Fin b => src (ix2 r p) := by
  refine (multiReduction_minimumf_eq_fold src _ h hφ hacc (ix1 r)).trans ?_
  refine (h.fold_filter_drop_single _ _ src (ix1 r)).trans ?_
  have e : (src ∘ h.lift (ix1 r)) = fun p : Fin b => src (ix2 r p) := funext fun k => congrArg src (funext fun c => Fin.ext (by
    match c with
    | ⟨0, _⟩ => rfl
    | ⟨1, _⟩ => rfl))
  rw [e]
  rfl

/-- A minimum down the columns of an `[a, b]` matrix reads, at column `p`, the minimum from +∞ over the column. -/
theorem colMin_apply {a b : ℕ} (src : FVec Ideal ⟨2, ![a, b]⟩ .f32) (h : (⟨2, ![a, b]⟩ : Shape).Reduces [0] ⟨1, ![b]⟩)
    (hφ : FKind.Formats .f32) (hacc : (0x7F800000#32 : BitVec 32) = FKind.minimumf.neutral .f32 hφ) (p : Fin b) :
    multiReduction .minimumf [0] ⟨1, ![b]⟩ src 0x7F800000#32 h hφ hacc (ix1 p) = minOver fun r : Fin a => src (ix2 r p) := by
  refine (multiReduction_minimumf_eq_fold src _ h hφ hacc (ix1 p)).trans ?_
  refine (h.fold_filter_drop_single _ _ src (ix1 p)).trans ?_
  have e : (src ∘ h.lift (ix1 p)) = fun r : Fin a => src (ix2 r p) := funext fun k => congrArg src (funext fun c => Fin.ext (by
    match c with
    | ⟨0, _⟩ => rfl
    | ⟨1, _⟩ => rfl))
  rw [e]
  rfl

/-! ## The keepdims layout forms -/

/-- An `[a]` vector cast to the column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(r, c)`, the column at `r`. -/
theorem broadcastTo_a1_ab_apply {α : Type} {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- The squared norms of the rows of `x`, kept as a column and broadcast along the rows: at `(r, p)` the squared norm of row `r`. -/
theorem sqNormCol_apply {a b k : ℕ} (x : FVec Ideal ⟨2, ![a, k]⟩ .f32) (hr : (⟨2, ![a, k]⟩ : Shape).Reduces [1] ⟨1, ![a]⟩)
    (hφ : FKind.Formats .f32) (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩) (r : Fin a) (p : Fin b) :
    broadcastTo ⟨2, ![a, b]⟩ (shapeCast ⟨2, ![a, 1]⟩ (multiReduction .add [1] ⟨1, ![a]⟩ (mulf x x) 0x00000000#32 hr hφ hacc) hc) hb (ix2 r p)
      = ∑ d : Fin k, x (ix2 r d) * x (ix2 r d) :=
  (broadcastTo_a1_ab_apply _ hb r p).trans ((shapeCast_a_a1_apply _ hc r 0).trans (laneSum_apply (mulf x x) hr hφ hacc r))

/-- The squared norms of the rows of `y`, kept as a row and broadcast down the columns: at `(r, p)` the squared norm of row `p`. -/
theorem sqNormRow_apply {a b k : ℕ} (y : FVec Ideal ⟨2, ![b, k]⟩ .f32) (hr : (⟨2, ![b, k]⟩ : Shape).Reduces [1] ⟨1, ![b]⟩)
    (hφ : FKind.Formats .f32) (hacc : (0x00000000#32 : BitVec 32) = FKind.add.neutral .f32 hφ)
    (hc : (⟨1, ![b]⟩ : Shape).ShapeCasts ⟨2, ![1, b]⟩) (hb : (⟨2, ![1, b]⟩ : Shape).Broadcasts ⟨2, ![a, b]⟩) (r : Fin a) (p : Fin b) :
    broadcastTo ⟨2, ![a, b]⟩ (shapeCast ⟨2, ![1, b]⟩ (multiReduction .add [1] ⟨1, ![b]⟩ (mulf y y) 0x00000000#32 hr hφ hacc) hc) hb (ix2 r p)
      = ∑ d : Fin k, y (ix2 p d) * y (ix2 p d) :=
  (broadcastTo_1b_ab_apply _ hb r p).trans ((shapeCast_a_1a_apply _ hc 0 p).trans (laneSum_apply (mulf y y) hr hφ hacc p))

/-! ## The product of the tile with the transposed prototypes -/

theorem lhs_gram_0 (i : S2048x512.Idx) (q : dot_S2048x256_S256x512_S2048x512_1_0_0_1_n_n.contr.Idx) :
    (dot_S2048x256_S256x512_S2048x512_1_0_0_1_n_n.lhsIdx i q 0).val = (i 0).val := by
  unfold DotDims.lhsIdx
  rw [dif_neg (show ¬(0 : Fin S2048x256.rank) ∈ dot_S2048x256_S256x512_S2048x512_1_0_0_1_n_n.lhsBatch by decide), dif_pos (show (0 : Fin S2048x256.rank) ∈ dot_S2048x256_S256x512_S2048x512_1_0_0_1_n_n.lhsNonContracting by decide)]
  rfl
theorem lhs_gram_1 (i : S2048x512.Idx) (q : dot_S2048x256_S256x512_S2048x512_1_0_0_1_n_n.contr.Idx) :
    (dot_S2048x256_S256x512_S2048x512_1_0_0_1_n_n.lhsIdx i q 1).val = (q ⟨0, by decide⟩).val :=
  dot_S2048x256_S256x512_S2048x512_1_0_0_1_n_n.lhsIdx_val_of_single rfl i q
theorem rhs_gram_0 (i : S2048x512.Idx) (q : dot_S2048x256_S256x512_S2048x512_1_0_0_1_n_n.contr.Idx) :
    (dot_S2048x256_S256x512_S2048x512_1_0_0_1_n_n.rhsIdx i q 0).val = (q ⟨0, by decide⟩).val :=
  dot_S2048x256_S256x512_S2048x512_1_0_0_1_n_n.rhsIdx_val_of_single rfl i q
theorem rhs_gram_1 (i : S2048x512.Idx) (q : dot_S2048x256_S256x512_S2048x512_1_0_0_1_n_n.contr.Idx) :
    (dot_S2048x256_S256x512_S2048x512_1_0_0_1_n_n.rhsIdx i q 1).val = (i 1).val := by
  unfold DotDims.rhsIdx
  rw [dif_neg (show ¬(1 : Fin S256x512.rank) ∈ dot_S2048x256_S256x512_S2048x512_1_0_0_1_n_n.rhsBatch by decide), dif_pos (show (1 : Fin S256x512.rank) ∈ dot_S2048x256_S256x512_S2048x512_1_0_0_1_n_n.rhsNonContracting by decide)]
  rfl

/-- The product into the zero accumulator reads, at `(r, p)`, the sum over the 256 contracted coordinates of the
    left operand at `(r, k)` times the right operand at `(k, p)`. -/
theorem gram_apply (A : FVec Ideal S2048x256 .bf16) (B : FVec Ideal S256x512 .bf16) (r : Fin 2048) (p : Fin 512) :
    matmul dot_S2048x256_S256x512_S2048x512_1_0_0_1_n_n none A B (constant (F := Ideal) S2048x512 .f32 0x00000000#32) (ix2 r p)
      = ∑ k : Fin 256, A (ix2 r k) * B (ix2 k p) := by
  simp only [matmul]
  rw [Ideal.matmul_constant_zero_apply, ← Equiv.sum_comp (contrEquiv1 dot_S2048x256_S256x512_S2048x512_1_0_0_1_n_n 256 rfl rfl).symm]
  refine Finset.sum_congr rfl fun k _ => ?_
  have hk := contrEquiv1_symm_val dot_S2048x256_S256x512_S2048x512_1_0_0_1_n_n 256 rfl rfl k
  have el : dot_S2048x256_S256x512_S2048x512_1_0_0_1_n_n.lhsIdx (ix2 r p) ((contrEquiv1 dot_S2048x256_S256x512_S2048x512_1_0_0_1_n_n 256 rfl rfl).symm k) = ix2 r k := funext fun a => Fin.ext (by
    match a with
    | ⟨0, _⟩ => exact lhs_gram_0 _ _
    | ⟨1, _⟩ => exact (lhs_gram_1 _ _).trans hk)
  have er : dot_S2048x256_S256x512_S2048x512_1_0_0_1_n_n.rhsIdx (ix2 r p) ((contrEquiv1 dot_S2048x256_S256x512_S2048x512_1_0_0_1_n_n 256 rfl rfl).symm k) = ix2 k p := funext fun a => Fin.ext (by
    match a with
    | ⟨0, _⟩ => exact (rhs_gram_0 _ _).trans hk
    | ⟨1, _⟩ => exact rhs_gram_1 _ _)
  rw [el, er]

/-! ## The distance matrix -/

/-- The distance from its three sums, the zero word read as `0`. -/
theorem dist_of_parts {A B M : EReal} {a b : Fin 256 → EReal} (hA : A = sqNorm a) (hB : B = sqNorm b) (hM : M = dotp a b) :
    Ideal.sqrt (max ((A + B) - cTwo * M) (Ideal.ofBits .f32 0x00000000#32)) = dist a b := by
  subst hA hB hM
  unfold ProtoLoss.dist
  rw [Ideal.ofBits_zero_f32]

/-- The distance matrix at `(r, p)`: the distance of row `r` of the tile and prototype row `p`. -/
theorem pay4_apply (x0 : Vec Ideal S2048x256 .f32) (x1 : Vec Ideal S512x256 .f32) (r : Fin 2048) (p : Fin 512) :
    k0_pay4 (F := Ideal) x0 x1 (ix2 r p) = dist (fun d => x0 (ix2 r d)) (fun d => x1 (ix2 p d)) := by
  unfold k0_pay4
  refine dist_of_parts (sqNormCol_apply x0 _ _ _ _ _ r p) (sqNormRow_apply x1 _ _ _ _ _ r p) ?_
  refine (gram_apply _ _ r p).trans ?_
  unfold dotp
  refine Finset.sum_congr rfl fun k _ => ?_
  exact congrArg (x0 (ix2 r k) * ·) (transpose_ix2_apply _ _ k p)

/-! ## The tile's column minima and the sum of its row minima -/

/-- The column minima of the distance matrix are the tile's `blockColMin`. -/
theorem pay6_apply (x0 : Vec Ideal S2048x256 .f32) (x1 : Vec Ideal S512x256 .f32) (p : Fin 512) :
    k0_pay6 (F := Ideal) x0 x1 (ix1 p) = blockColMin (fun r d => x0 (ix2 r d)) (fun q d => x1 (ix2 q d)) p := by
  unfold k0_pay6
  refine (colMin_apply (k0_pay4 (F := Ideal) x0 x1) _ _ _ p).trans ?_
  unfold blockColMin
  exact congrArg minOver (funext fun r => pay4_apply x0 x1 r p)

/-- The one element of a `[1, 1]` matrix, extracted at position `(0, 0)`. -/
theorem extractAt_00_apply {α : Type} (x : (⟨2, ![1, 1]⟩ : Shape).Idx → α)
    (h : ∀ a, (![0, 0] : Fin 2 → ℕ) a < (⟨2, ![1, 1]⟩ : Shape).size a) :
    extractAt ![0, 0] x h = x (ix2 (0 : Fin 1) (0 : Fin 1)) := by
  unfold extractAt
  exact congrArg x (funext fun a => Fin.ext (by
    match a with
    | ⟨0, _⟩ => rfl
    | ⟨1, _⟩ => rfl))

/-- The sum of the row minima of the distance matrix, added to the stored value, is the tile's `blockRowSum`. -/
theorem pay5_apply (x0 : Vec Ideal S2048x256 .f32) (x1 : Vec Ideal S512x256 .f32) (v29 : Vec Ideal S1x1x1 .f32) :
    k0_pay5 (F := Ideal) x0 x1 v29 (ix3 (0 : Fin 1) (0 : Fin 1) (0 : Fin 1))
      = v29 (ix3 (0 : Fin 1) (0 : Fin 1) (0 : Fin 1)) + blockRowSum (fun r d => x0 (ix2 r d)) (fun q d => x1 (ix2 q d)) := by
  unfold k0_pay5
  rw [shapeCast_self]
  refine (addf_apply _ _ _).trans (congrArg (v29 (ix3 (0 : Fin 1) (0 : Fin 1) (0 : Fin 1)) + ·) ?_)
  refine (broadcast_apply _ _).trans ?_
  refine (extractAt_00_apply _ _).trans ?_
  refine (shapeCast_a_a1_apply _ _ 0 0).trans ?_
  refine (laneSum_apply _ _ _ _ 0).trans ?_
  unfold blockRowSum
  refine Finset.sum_congr rfl fun r _ => ?_
  refine (shapeCast_a_1a_apply _ _ 0 r).trans ?_
  refine (rowMin_apply (k0_pay4 (F := Ideal) x0 x1) _ _ _ r).trans ?_
  exact congrArg minOver (funext fun p => pay4_apply x0 x1 r p)

end Cert.KernelIdeal.Payload

end
-- ==== Proof.Algebra.lean ====
/-
  The algebra of the prototype-distance loss: the float word for +∞ is ⊤, a lower bound of a minimum taken from ⊤ is a
  lower bound of every member, the distance of two rows is symmetric, and the tiled loss is the reference's loss.

  The last one is two re-indexings. A row index `n < 262144` is `2048·j + r` with `j < 128`, `r < 2048` in exactly
  one way, and a tile index `j < 128` is `64·h + q` with `h < 2`, `q < 64` in exactly one way. So a sum over all rows
  is the sum over halves, tiles and rows of a tile, and a minimum over all rows is the minimum over halves of the
  minimum over tiles of the minimum over the rows of a tile. Neither step needs finiteness: sums in the extended reals
  are sums of a commutative monoid, and minima are compared through their lower bounds.
-/
import proofs.«113680_j20349555048831_1_alg».proof.Proof.Spec
import Mathlib.Data.Finset.Fold
import Mathlib.Data.Fintype.BigOperators
import Mathlib.Logic.Equiv.Fin.Basic
import Mathlib.Algebra.BigOperators.Group.Finset.Defs

noncomputable section

open scoped BigOperators

namespace ProtoLoss

open Idealize.ShloMosaic Idealize.ShloMosaic.ValueIdx

/-- The word 0x7F800000 has all exponent bits set and no mantissa bit: it denotes +∞. -/
theorem cInf_eq_top : cInf = ⊤ := by
  show Ideal.ofBits .f32 0x7F800000#32 = ⊤
  simp [Ideal.ofBits, Ideal.ieee]

/-- A lower bound of the minimum from +∞ is a lower bound of every member: +∞ bounds nothing. -/
theorem le_minOver_iff {n : ℕ} (f : Fin n → EReal) (x : EReal) : x ≤ minOver f ↔ ∀ i, x ≤ f i := by
  unfold minOver
  rw [Finset.le_fold_min, cInf_eq_top]
  constructor
  · intro h i
    exact h.2 i (Finset.mem_univ i)
  · intro h
    exact ⟨le_top, fun i _ => h i⟩

/-- The inner product is symmetric. -/
theorem dotp_comm (a b : Fin 256 → EReal) : dotp a b = dotp b a := by
  unfold dotp
  exact Finset.sum_congr rfl (fun d _ => mul_comm (a d) (b d))

/-- The distance is symmetric: the two squared norms trade places and the inner product is symmetric. -/
theorem dist_comm (a b : Fin 256 → EReal) : dist a b = dist b a := by
  unfold dist
  rw [dotp_comm a b, add_comm (sqNorm a) (sqNorm b)]

/-- `j·b + r < a·b` for `j < a` and `r < b`. -/
theorem mul_add_lt_mul {a b j r : ℕ} (hj : j < a) (hr : r < b) : j * b + r < a * b :=
  calc j * b + r < j * b + b := Nat.add_lt_add_left hr _
    _ = (j + 1) * b := (Nat.succ_mul j b).symm
    _ ≤ a * b := Nat.mul_le_mul_right b hj

/-- A sum over `n = a·b` indices is the sum over `j < a` of the sums over `r < b` at the index `j·b + r`. -/
theorem sum_fin_eq_sum_blocks {M : Type} [AddCommMonoid M] {n : ℕ} (a b : ℕ) (hn : a * b = n) (g : Fin n → M) :
    ∑ i : Fin n, g i
      = ∑ j : Fin a, ∑ r : Fin b, g ⟨j.val * b + r.val, hn ▸ mul_add_lt_mul j.isLt r.isLt⟩ := by
  subst hn
  rw [← Equiv.sum_comp finProdFinEquiv g, Fintype.sum_prod_type]
  refine Finset.sum_congr rfl (fun j _ => Finset.sum_congr rfl (fun r _ => ?_))
  congr 1
  apply Fin.ext
  show r.val + b * j.val = j.val * b + r.val
  rw [Nat.mul_comm, Nat.add_comm]

/-- Every row of `z` is a row of exactly one tile of one half. -/
theorem row_split (n : Fin 262144) :
    ∃ (h : Fin 2) (q : Fin 64) (r : Fin 2048), n = rowOf (tileOf h q) r := by
  have hn := n.isLt
  refine ⟨⟨n.val / 131072, by omega⟩, ⟨n.val / 2048 % 64, by omega⟩, ⟨n.val % 2048, by omega⟩, ?_⟩
  apply Fin.ext
  show n.val = (n.val / 131072 * 64 + n.val / 2048 % 64) * 2048 + n.val % 2048
  omega

/-- The column term: the minimum over the two halves of the minimum over a half's tiles of the minimum over a tile's
    rows is the minimum over all rows; each is compared through its lower bounds. -/
theorem colMin_eq (z : ZArr) (w : WArr) (p : Fin 512) :
    minOver (fun h : Fin 2 => halfColMin z w h p) = minOver (fun n : Fin 262144 => dist (wrow w p) (zrow z n)) := by
  apply eq_of_forall_le_iff
  intro x
  unfold halfColMin tileColMin blockColMin
  simp only [le_minOver_iff]
  constructor
  · intro H n
    obtain ⟨h, q, r, rfl⟩ := row_split n
    rw [dist_comm]
    exact H h q r
  · intro H h q r
    rw [dist_comm]
    exact H (rowOf (tileOf h q) r)

/-- The row term: the sum over halves, tiles and a tile's rows of the row minima is the sum over all rows. -/
theorem rowSum_eq (z : ZArr) (w : WArr) :
    ∑ h : Fin 2, halfRowSum z w h
      = ∑ n : Fin 262144, minOver fun p : Fin 512 => dist (zrow z n) (wrow w p) := by
  have rows := sum_fin_eq_sum_blocks 128 2048 (by norm_num)
    (fun n : Fin 262144 => minOver fun p : Fin 512 => dist (zrow z n) (wrow w p))
  have tiles := sum_fin_eq_sum_blocks 2 64 (by norm_num)
    (fun j : Fin 128 => ∑ r : Fin 2048, minOver fun p : Fin 512 => dist (zrow z (rowOf j r)) (wrow w p))
  exact (rows.trans tiles).symm

/-- The tiled loss is the reference's loss: the two terms are the same sums and minima, re-indexed. -/
theorem tiledLoss_eq_refLoss (z : ZArr) (w : WArr) : tiledLoss z w = refLoss z w := by
  unfold tiledLoss refLoss
  rw [rowSum_eq z w, Finset.sum_congr rfl (fun p _ => colMin_eq z w p)]

end ProtoLoss

end
-- ==== Proof.Accum.lean ====
/-
  Two accumulators that restart every 64 steps, in closed form.

  A sequence `A` that at the multiples of 64 restarts from the neutral element with the step's datum, and at every
  other step combines what the step before left with the step's datum, holds at step `n` the combination of the data
  of the steps `64·(n / 64) … n`: for the minimum from +∞ stated by its universal property (a lower bound of `A n`
  is a lower bound of each of those data), for the sum from 0 as a sum over a range.
-/
import Mathlib.Data.EReal.Basic
import Mathlib.Algebra.BigOperators.Intervals

open scoped BigOperators

namespace ProtoLoss

/-- The running minimum, restarted from +∞ at the multiples of 64. -/
theorem acc_min_iff (N : ℕ) (T A : ℕ → EReal)
    (h0 : ∀ n, n < N → n % 64 = 0 → A n = min ⊤ (T n))
    (hs : ∀ n, n + 1 < N → ¬(n + 1) % 64 = 0 → A (n + 1) = min (A n) (T (n + 1))) :
    ∀ n, n < N → ∀ x : EReal, x ≤ A n ↔ ∀ s, s ≤ n % 64 → x ≤ T (n / 64 * 64 + s)
  | 0, hn, x => by
    rw [h0 0 hn rfl, le_min_iff]
    constructor
    · rintro ⟨-, h⟩ s hs'
      have : s = 0 := by omega
      subst this; exact h
    · intro h; exact ⟨le_top, h 0 (Nat.zero_le _)⟩
  | n + 1, hn, x => by
    by_cases hz : (n + 1) % 64 = 0
    · rw [h0 (n + 1) hn hz, le_min_iff]
      have e : (n + 1) / 64 * 64 + 0 = n + 1 := by omega
      constructor
      · rintro ⟨-, h⟩ s hs'
        have : s = 0 := by omega
        subst this; rw [e]; exact h
      · intro h; exact ⟨le_top, e ▸ h 0 (Nat.zero_le _)⟩
    · rw [hs n hn hz, le_min_iff, acc_min_iff N T A h0 hs n (Nat.lt_of_succ_lt hn) x]
      have ediv : (n + 1) / 64 = n / 64 := by omega
      have emod : (n + 1) % 64 = n % 64 + 1 := by omega
      have elast : n / 64 * 64 + (n % 64 + 1) = n + 1 := by omega
      rw [ediv, emod]
      constructor
      · rintro ⟨h1, h2⟩ s hs'
        by_cases hlast : s = n % 64 + 1
        · subst hlast; rw [elast]; exact h2
        · exact h1 s (by omega)
      · intro h
        exact ⟨fun s hs' => h s (by omega), elast ▸ h (n % 64 + 1) (le_refl _)⟩

/-- The running sum, restarted from 0 at the multiples of 64. -/
theorem acc_sum_eq (N : ℕ) (S A : ℕ → EReal)
    (h0 : ∀ n, n < N → n % 64 = 0 → A n = 0 + S n)
    (hs : ∀ n, n + 1 < N → ¬(n + 1) % 64 = 0 → A (n + 1) = A n + S (n + 1)) :
    ∀ n, n < N → A n = ∑ s ∈ Finset.range (n % 64 + 1), S (n / 64 * 64 + s)
  | 0, hn => by
    rw [h0 0 hn rfl, zero_add]
    simp
  | n + 1, hn => by
    by_cases hz : (n + 1) % 64 = 0
    · rw [h0 (n + 1) hn hz, zero_add, hz]
      have e : (n + 1) / 64 * 64 + 0 = n + 1 := by omega
      rw [Finset.sum_range_one, e]
    · rw [hs n hn hz, acc_sum_eq N S A h0 hs n (Nat.lt_of_succ_lt hn)]
      have ediv : (n + 1) / 64 = n / 64 := by omega
      have emod : (n + 1) % 64 = n % 64 + 1 := by omega
      have elast : n / 64 * 64 + (n % 64 + 1) = n + 1 := by omega
      rw [ediv, emod, Finset.sum_range_succ _ (n % 64 + 1), elast]

end ProtoLoss
-- ==== Proof.KValue.lean ====
import proofs.«113680_j20349555048831_1_alg».proof.Proof.Gen.KernelIdeal.Frame
import Idealize.ShloMosaic.Lib.Pipeline.Value
import Idealize.ShloMosaic.Lib.Tactic
import proofs.«113680_j20349555048831_1_alg».proof.Proof.Blocks
import proofs.«113680_j20349555048831_1_alg».proof.Proof.Payload
import proofs.«113680_j20349555048831_1_alg».proof.Proof.Algebra
import proofs.«113680_j20349555048831_1_alg».proof.Proof.Accum
import Idealize.ShloMosaic.Lib.ValueIdx

noncomputable section

open Idealize.ShloMosaic Idealize.ShloMosaic.TcCoe Idealize.SL.Sem
open Idealize.ShloMosaic.Pipeline (Dat)

open scoped BigOperators

/-!
  The two arrays the kernel region writes, at the ideal values.

  After tile `t` the column-minimum accumulator holds, at column `p`, the minimum over the tiles of `t`'s half up to
  `t` of the tile's column minimum, and the row-sum accumulator the sum over the same tiles of the tile's sum of row
  minima (the accumulators restart at a half's first tile). At a half's last tile both are written out, so the
  array of column minima ends holding `halfColMin` and the array of row sums `halfRowSum` of the two argument arrays.
-/

namespace Cert.KernelIdeal.KValue

open Cert.KernelIdeal Cert.KernelIdeal.Gen Cert.KernelIdeal.Steps Cert.KernelIdeal.Blocks Cert.KernelIdeal.Payload
open Idealize.ShloMosaic.ValueIdx ProtoLoss

variable (m : (ℓ : Loc nD τ sig) → Buf (Elt Ideal) ℓ)

/-- The two argument arrays as the region finds them. -/
abbrev zA (c : Dev nD) : ZArr := V m c main_arg0
abbrev wA (c : Dev nD) : WArr := V m c main_arg1

/-! ## One tile -/

/-- The tile's column minima, of the arrays. -/
theorem tile_col (c : Dev nD) (t : Fin cfg0.N) (p : Fin 512) :
    k0_pay6 (F := Ideal) (xblk m c t) (wblk m c t) (ix1 p) = tileColMin (zA m c) (wA m c) ⟨t.val, lt_N t⟩ p := by
  rw [pay6_apply]
  unfold tileColMin
  congr 1
  · funext r d; rw [xblk_apply]; rfl
  · funext q d; rw [wblk_apply]; rfl

/-- The tile's sum of row minima, added to what the accumulator held. -/
theorem tile_sum (c : Dev nD) (t : Fin cfg0.N) (v : Vec Ideal S1x1x1 .f32) :
    k0_pay5 (F := Ideal) (xblk m c t) (wblk m c t) v (ix3 (0 : Fin 1) (0 : Fin 1) (0 : Fin 1))
      = v (ix3 (0 : Fin 1) (0 : Fin 1) (0 : Fin 1)) + tileRowSum (zA m c) (wA m c) ⟨t.val, lt_N t⟩ := by
  rw [pay5_apply]
  unfold tileRowSum
  congr 2
  · funext r d; rw [xblk_apply]; rfl
  · funext q d; rw [wblk_apply]; rfl

/-! ## The accumulators along the grid -/

/-- The tiles' data and the accumulators at an index, continued past the grid by the neutral elements. -/
def TC (c : Dev nD) (p : Fin 512) (j : ℕ) : EReal := if h : j < 128 then tileColMin (zA m c) (wA m c) ⟨j, h⟩ p else ⊤
def TS (c : Dev nD) (j : ℕ) : EReal := if h : j < 128 then tileRowSum (zA m c) (wA m c) ⟨j, h⟩ else 0
def AC (c : Dev nD) (p : Fin 512) (n : ℕ) : EReal :=
  if h : n < cfg0.N then colAcc m c n h (ix3 (0 : Fin 1) (0 : Fin 1) p) else ⊤
def AS (c : Dev nD) (n : ℕ) : EReal :=
  if h : n < cfg0.N then sumAcc m c n h (ix3 (0 : Fin 1) (0 : Fin 1) (0 : Fin 1)) else 0

theorem AC_first (c : Dev nD) (p : Fin 512) (n : ℕ) (hn : n < cfg0.N) (h0 : n % 64 = 0) :
    AC m c p n = min ⊤ (TC m c p n) := by
  have hn' : n < 128 := lt_N ⟨n, hn⟩
  unfold AC TC
  rw [dif_pos hn, dif_pos hn']
  have e : colAcc m c n hn = k0_pay1 (k0_pay6 (xblk m c ⟨n, hn⟩) (wblk m c ⟨n, hn⟩)) (k0_pay2 (F := Ideal)) :=
    colAcc_first m c ⟨n, hn⟩ h0
  rw [e, pay1_apply, pay2_apply, tile_col]

theorem AC_step (c : Dev nD) (p : Fin 512) (n : ℕ) (hn : n + 1 < cfg0.N) (h0 : ¬(n + 1) % 64 = 0) :
    AC m c p (n + 1) = min (AC m c p n) (TC m c p (n + 1)) := by
  have hn' : n + 1 < 128 := lt_N ⟨n + 1, hn⟩
  unfold AC TC
  rw [dif_pos hn, dif_pos hn', dif_pos (Nat.lt_of_succ_lt hn)]
  have e : colAcc m c (n + 1) hn
      = k0_pay1 (k0_pay6 (xblk m c ⟨n + 1, hn⟩) (wblk m c ⟨n + 1, hn⟩)) (colAcc m c n (Nat.lt_of_succ_lt hn)) :=
    colAcc_step m c ⟨n + 1, hn⟩ h0
  rw [e, pay1_apply, tile_col]

theorem AS_first (c : Dev nD) (n : ℕ) (hn : n < cfg0.N) (h0 : n % 64 = 0) : AS m c n = 0 + TS m c n := by
  have hn' : n < 128 := lt_N ⟨n, hn⟩
  unfold AS TS
  rw [dif_pos hn, dif_pos hn']
  have e : sumAcc m c n hn = k0_pay5 (xblk m c ⟨n, hn⟩) (wblk m c ⟨n, hn⟩) (k0_pay3 (F := Ideal)) :=
    sumAcc_first m c ⟨n, hn⟩ h0
  rw [e, tile_sum, pay3_apply]

theorem AS_step (c : Dev nD) (n : ℕ) (hn : n + 1 < cfg0.N) (h0 : ¬(n + 1) % 64 = 0) :
    AS m c (n + 1) = AS m c n + TS m c (n + 1) := by
  have hn' : n + 1 < 128 := lt_N ⟨n + 1, hn⟩
  unfold AS TS
  rw [dif_pos hn, dif_pos hn', dif_pos (Nat.lt_of_succ_lt hn)]
  have e : sumAcc m c (n + 1) hn
      = k0_pay5 (xblk m c ⟨n + 1, hn⟩) (wblk m c ⟨n + 1, hn⟩) (sumAcc m c n (Nat.lt_of_succ_lt hn)) :=
    sumAcc_step m c ⟨n + 1, hn⟩ h0
  rw [e, tile_sum]

/-- At a half's last tile the column-minimum accumulator is the half's column minimum. -/
theorem colAcc_last (c : Dev nD) (t : Fin cfg0.N) (h1 : t.val % 64 = 63) (p : Fin 512) :
    colAcc m c t.val t.isLt (ix3 (0 : Fin 1) (0 : Fin 1) p)
      = halfColMin (zA m c) (wA m c) ⟨t.val / 64, by have := lt_N t; omega⟩ p := by
  have hN := lt_N t
  have key := acc_min_iff cfg0.N (TC m c p) (AC m c p) (AC_first m c p) (AC_step m c p) t.val t.isLt
  have eA : AC m c p t.val = colAcc m c t.val t.isLt (ix3 (0 : Fin 1) (0 : Fin 1) p) := by
    unfold AC; rw [dif_pos t.isLt]
  rw [eA, h1] at key
  apply eq_of_forall_le_iff
  intro x
  unfold halfColMin
  rw [key, le_minOver_iff]
  constructor
  · intro h q
    have hq := q.isLt
    have := h q.val (by omega)
    unfold TC at this
    rw [dif_pos (by omega)] at this
    exact this
  · intro h s hs
    unfold TC
    rw [dif_pos (by omega)]
    exact h ⟨s, by omega⟩

/-- At a half's last tile the row-sum accumulator is the half's sum. -/
theorem sumAcc_last (c : Dev nD) (t : Fin cfg0.N) (h1 : t.val % 64 = 63) :
    sumAcc m c t.val t.isLt (ix3 (0 : Fin 1) (0 : Fin 1) (0 : Fin 1))
      = halfRowSum (zA m c) (wA m c) ⟨t.val / 64, by have := lt_N t; omega⟩ := by
  have hN := lt_N t
  have key := acc_sum_eq cfg0.N (TS m c) (AS m c) (AS_first m c) (AS_step m c) t.val t.isLt
  have eA : AS m c t.val = sumAcc m c t.val t.isLt (ix3 (0 : Fin 1) (0 : Fin 1) (0 : Fin 1)) := by
    unfold AS; rw [dif_pos t.isLt]
  rw [eA, h1] at key
  rw [key, Finset.sum_range]
  unfold halfRowSum
  refine Finset.sum_congr rfl fun q _ => ?_
  have hq := q.isLt
  unfold TS
  rw [dif_pos (by omega)]
  rfl

end Cert.KernelIdeal.KValue

end
-- ==== Proof.Tail.lean ====
import proofs.«113680_j20349555048831_1_alg».proof.Proof.Gen.KernelIdeal.Frame
import Idealize.ShloMosaic.Lib.Pipeline.Value
import Idealize.ShloMosaic.Lib.Tactic
import Idealize.ShloMosaic.Lib.StableHlo.Run

noncomputable section

open Idealize.ShloMosaic Idealize.ShloMosaic.TcCoe Idealize.SL.Sem
open Idealize.ShloMosaic.Pipeline (Dat)

/-!
  What the host lines after the kernel region compute, as one term of the two arrays the region wrote: of the
  per-half column minima (2 × 1 × 512) the minimum over the two halves, summed over the 512 columns, divided by 512
  and weighted; of the per-half row sums (2 × 1 × 1) the sum over the two halves, divided by 262144 and weighted; and
  the sum of the two terms.
-/

namespace Cert.KernelIdeal.Tail

open Cert.KernelIdeal Cert.KernelIdeal.Gen

variable {F : FTy → Type} [FloatOps F]

/-- The host lines' result as a function of the two arrays. -/
def tailTerm (A2 : (⟨S2x1x512, .f32⟩ : BufTy).Contents (Elt F)) (A3 : (⟨S2x1x1, .f32⟩ : BufTy).Contents (Elt F)) :
    (⟨S_, .f32⟩ : BufTy).Contents (Elt F) :=
  addf
    (mulf (constant (F := F) S_ .f32 0x3D4CCCCD#32)
      (Host.divf
        (Host.reduceAdd (shapeCast S2 A3 shapeCasts_S2x1x1_S2) (constant (F := F) S_ .f32 0x00000000#32) reducesTo_S2_S_d0 h_S_)
        (constant (F := F) S_ .f32 0x48800000#32)))
    (mulf (constant (F := F) S_ .f32 0x3D4CCCCD#32)
      (Host.divf
        (Host.reduceAdd
          (Host.reduce FloatOps.minimumf (shapeCast S2x512 A2 shapeCasts_S2x1x512_S2x512)
            (constant (F := F) S_ .f32 0x7F800000#32) reducesTo_S2x512_S512_d0 h_S_)
          (constant (F := F) S_ .f32 0x00000000#32) reducesTo_S512_S_d0 h_S_)
        (constant (F := F) S_ .f32 0x44000000#32)))

variable (m : (ℓ : Loc nD τ sig) → Buf (Elt F) ℓ)

/-- The program's result buffer after the host lines: that term of the two arrays as the region leaves them. -/
theorem tail_run (c : Dev nD) :
    Pipeline.afterTail₀ cfgs (dats m) 0 (V0 m) [hostOps1] c main_v10
      = tailTerm ((dats m 0 c).arrAt 2 cfg0.N) ((dats m 0 c).arrAt 3 cfg0.N) := by
  rw [← Pipeline.withArrays_arr spec0 launch0.win.arr_inj c (V0 m c) (fun w => (dats m 0 c).arrAt w cfg0.N) 2,
    ← Pipeline.withArrays_arr spec0 launch0.win.arr_inj c (V0 m c) (fun w => (dats m 0 c).arrAt w cfg0.N) 3]
  unfold Pipeline.afterTail₀
  show StableHlo.after hostOps1 _ (Proc.devRef .tc main_v10) = _
  after_results
  rfl

end Cert.KernelIdeal.Tail

end
-- ==== Proof.TailValue.lean ====
/-
  The value of the host lines that follow the kernel region, as a function of the two arrays the region wrote.

  The per-half row sums (2 × 1 × 1), viewed as 2 numbers, are summed from the word 0, divided by the row count and
  weighted; the per-half column minima (2 × 1 × 512), viewed as a 2 × 512 matrix, are reduced by `min` from +∞ over
  the two halves, the 512 minima summed from the word 0, divided by the prototype count and weighted; the result is
  the sum of the two terms. The two views keep the row-major position, so they read `(h, 0, 0)` at `h` and
  `(h, 0, p)` at `(h, p)`.
-/
import proofs.«113680_j20349555048831_1_alg».proof.Proof.Spec
import proofs.«113680_j20349555048831_1_alg».proof.Proof.Tail
import Idealize.ShloMosaic.Lib.ValueIdx
import Idealize.ShloMosaic.Lib.ValueIdxRank1
import Idealize.ShloMosaic.Lib.Pipeline.Value
import Idealize.ShloMosaic.PureOps.Ideal.Laws
import Idealize.ShloMosaic.PureOps.Reduce

noncomputable section

open scoped BigOperators

namespace Cert.KernelIdeal.TailValue

open Cert.KernelIdeal Cert.KernelIdeal.Gen Cert.KernelIdeal.Tail Idealize.ShloMosaic Idealize.ShloMosaic.ValueIdx ProtoLoss

/-! ## The two views -/

/-- The 2 × 1 × 1 array viewed as 2 numbers reads `(h, 0, 0)` at `h`. -/
theorem cast3_at (A3 : (⟨S2x1x1, .f32⟩ : BufTy).Contents (Elt Ideal)) (h : Fin 2) :
    shapeCast S2 A3 shapeCasts_S2x1x1_S2 (ix1 h) = A3 (ix3 h (0 : Fin 1) (0 : Fin 1)) := by
  refine shapeCast_apply A3 shapeCasts_S2x1x1_S2 (ix1 h) (ix3 h (0 : Fin 1) (0 : Fin 1)) ?_
  rw [Shape.rowMajor_val_three, Shape.rowMajor_val_one]
  show (h.val * 1 + 0) * 1 + 0 = h.val
  omega

/-- The 2 × 1 × 512 array viewed as a 2 × 512 matrix reads `(h, 0, p)` at `(h, p)`. -/
theorem cast2_at (A2 : (⟨S2x1x512, .f32⟩ : BufTy).Contents (Elt Ideal)) (h : Fin 2) (p : Fin 512) :
    shapeCast S2x512 A2 shapeCasts_S2x1x512_S2x512 (ix2 h p) = A2 (ix3 h (0 : Fin 1) p) := by
  refine shapeCast_apply A2 shapeCasts_S2x1x512_S2x512 (ix2 h p) (ix3 h (0 : Fin 1) p) ?_
  rw [Shape.rowMajor_val_three, Shape.rowMajor_val_two]
  show (h.val * 1 + 0) * 512 + p.val = h.val * 512 + p.val
  omega

/-! ## The reductions -/

/-- The sum from the word 0 of 2 numbers. -/
theorem sum2_at (y : FVec Ideal S2 .f32) (i : S_.Idx) :
    Host.reduceAdd y (constant (F := Ideal) S_ .f32 0x00000000#32) reducesTo_S2_S_d0 h_S_ i = ∑ h : Fin 2, y (ix1 h) := by
  simp only [Host.reduceAdd, Ideal.hostReduceAdd_def]
  rw [Ideal.hostReduceAdd_total reducesTo_S2_S_d0 (fun b => b.elim0) y _ i, constant_apply, Ideal.ofBits_zero_f32,
    zero_add, ← Equiv.sum_comp (idxEquiv1 (n := 2)).symm]
  rfl

/-- The sum from the word 0 of 512 numbers. -/
theorem sum512_at (y : FVec Ideal S512 .f32) (i : S_.Idx) :
    Host.reduceAdd y (constant (F := Ideal) S_ .f32 0x00000000#32) reducesTo_S512_S_d0 h_S_ i = ∑ p : Fin 512, y (ix1 p) := by
  simp only [Host.reduceAdd, Ideal.hostReduceAdd_def]
  rw [Ideal.hostReduceAdd_total reducesTo_S512_S_d0 (fun b => b.elim0) y _ i, constant_apply, Ideal.ofBits_zero_f32,
    zero_add, ← Equiv.sum_comp (idxEquiv1 (n := 512)).symm]
  rfl

/-- The minimum from +∞ over the two halves, at column `p`. -/
theorem min_at (y : FVec Ideal S2x512 .f32) (p : Fin 512) :
    Host.reduce FloatOps.minimumf y (constant (F := Ideal) S_ .f32 0x7F800000#32) reducesTo_S2x512_S512_d0 h_S_ (ix1 p)
      = minOver fun h : Fin 2 => y (ix2 h p) := by
  have hr : S2x512.Reduces [0] S512 := by decide
  rw [Host.reduce_eq_fold_single _ _ _ reducesTo_S2x512_S512_d0 hr h_S_]
  have e : (y ∘ hr.lift (ix1 p)) = fun h : Fin 2 => y (ix2 h p) := funext fun k => congrArg y
    (funext fun a => Fin.ext (by match a with | ⟨0, _⟩ => rfl | ⟨1, _⟩ => rfl))
  rw [e]; rfl

/-! ## The host lines' value -/

/-- The host lines' result: the weighted mean of the summed row sums plus the weighted mean of the column minima. -/
theorem tail_value (A2 : (⟨S2x1x512, .f32⟩ : BufTy).Contents (Elt Ideal)) (A3 : (⟨S2x1x1, .f32⟩ : BufTy).Contents (Elt Ideal)) (i : S_.Idx) :
    tailTerm (F := Ideal) A2 A3 i = cReg * Ideal.div (∑ h : Fin 2, A3 (ix3 h (0 : Fin 1) (0 : Fin 1))) cN + cReg * Ideal.div (∑ p : Fin 512, minOver fun h : Fin 2 => A2 (ix3 h (0 : Fin 1) p)) cP := by
  unfold tailTerm
  show cReg * Ideal.div (Host.reduceAdd (shapeCast S2 A3 shapeCasts_S2x1x1_S2)
        (constant (F := Ideal) S_ .f32 0x00000000#32) reducesTo_S2_S_d0 h_S_ i) cN
      + cReg * Ideal.div (Host.reduceAdd (Host.reduce FloatOps.minimumf (shapeCast S2x512 A2 shapeCasts_S2x1x512_S2x512)
          (constant (F := Ideal) S_ .f32 0x7F800000#32) reducesTo_S2x512_S512_d0 h_S_)
        (constant (F := Ideal) S_ .f32 0x00000000#32) reducesTo_S512_S_d0 h_S_ i) cP = _
  rw [sum2_at, sum512_at]
  have e3 : (fun h : Fin 2 => shapeCast S2 A3 shapeCasts_S2x1x1_S2 (ix1 h)) = fun h => A3 (ix3 h (0 : Fin 1) (0 : Fin 1)) :=
    funext fun h => cast3_at A3 h
  have e2 : (fun p : Fin 512 => Host.reduce FloatOps.minimumf (shapeCast S2x512 A2 shapeCasts_S2x1x512_S2x512)
        (constant (F := Ideal) S_ .f32 0x7F800000#32) reducesTo_S2x512_S512_d0 h_S_ (ix1 p))
      = fun p => minOver fun h : Fin 2 => A2 (ix3 h (0 : Fin 1) p) :=
    funext fun p => (min_at _ p).trans (congrArg minOver (funext fun h => cast2_at A2 h p))
  rw [e3, e2]

end Cert.KernelIdeal.TailValue

end
-- ==== Proof.Final.lean ====
import proofs.«113680_j20349555048831_1_alg».proof.Proof.Gen.KernelIdeal.Frame
import Idealize.ShloMosaic.Lib.Pipeline.Value
import Idealize.ShloMosaic.Lib.Tactic
import proofs.«113680_j20349555048831_1_alg».proof.Proof.KValue
import proofs.«113680_j20349555048831_1_alg».proof.Proof.Tail
import proofs.«113680_j20349555048831_1_alg».proof.Proof.TailValue
import Idealize.ShloMosaic.Lib.ValueIdx

noncomputable section

open Idealize.ShloMosaic Idealize.ShloMosaic.TcCoe Idealize.SL.Sem
open Idealize.ShloMosaic.Pipeline (Dat)

open scoped BigOperators

/-!
  The kernel program's result, at the ideal values, is the tiled loss of its two argument arrays.

  Each of the two output windows writes one block per half, at the half's last tile, and those two blocks tile the
  array: the array of column minima ends as `halfColMin` at `(h, 0, p)`, the array of row sums as `halfRowSum` at
  `(h, 0, 0)`. The host lines after the region then take the minimum resp. the sum over the two halves, the means and
  the weighted sum: the tiled loss.
-/

namespace Cert.KernelIdeal.Final

open Cert.KernelIdeal Cert.KernelIdeal.Gen Cert.KernelIdeal.Steps Cert.KernelIdeal.Blocks Cert.KernelIdeal.KValue
open Cert.KernelIdeal.Tail Cert.KernelIdeal.TailValue
open Idealize.ShloMosaic.ValueIdx ProtoLoss

variable (m : (ℓ : Loc nD τ sig) → Buf (Elt Ideal) ℓ) (ρ : Dev nD → PrngReg)

/-- The two arrays after the region, as functions of the argument arrays. -/
def colMins (c : Dev nD) : (⟨S2x1x512, .f32⟩ : BufTy).Contents (Elt Ideal) :=
  fun i => halfColMin (zA m c) (wA m c) ⟨(i 0).val, (i 0).isLt⟩ ⟨(i 2).val, (i 2).isLt⟩
def rowSums (c : Dev nD) : (⟨S2x1x1, .f32⟩ : BufTy).Contents (Elt Ideal) :=
  fun i => halfRowSum (zA m c) (wA m c) ⟨(i 0).val, (i 0).isLt⟩

theorem eq_ix3_00 (j : S1x1x512.Idx) : j = ix3 (0 : Fin 1) (0 : Fin 1) (⟨(j 2).val, (j 2).isLt⟩ : Fin 512) := by
  funext a
  match a with
  | ⟨0, _⟩ => exact Subsingleton.elim (α := Fin 1) _ _
  | ⟨1, _⟩ => exact Subsingleton.elim (α := Fin 1) _ _
  | ⟨2, _⟩ => rfl

theorem eq_ix3_000 (j : S1x1x1.Idx) : j = ix3 (0 : Fin 1) (0 : Fin 1) (0 : Fin 1) := by
  funext a
  match a with
  | ⟨0, _⟩ => exact Subsingleton.elim (α := Fin 1) _ _
  | ⟨1, _⟩ => exact Subsingleton.elim (α := Fin 1) _ _
  | ⟨2, _⟩ => exact Subsingleton.elim (α := Fin 1) _ _

/-- What a half's last tile writes back into the array of column minima is that half's block of `colMins`. -/
theorem flushed2_eq (c : Dev nD) (t : Fin cfg0.N) (hf : (cfg0.win 2).flush t = true) :
    (dats m 0 c).flushed 2 t = ((cfg0.win 2).blk t).view.read (Elt Ideal) (colMins m c) := by
  have h1 : t.val % 64 = 63 := (flush0_2 t).mp hf
  have hN := lt_N t
  obtain ⟨-, -, -, -, e0, e1, e2, -⟩ := idx_facts t
  show (cfg0.win 2).cut (grid0.coords t) ((dats m 0 c).after 2 t) = _
  rw [after0_2, out2_last m c t h1]
  funext j
  rw [View.read_apply, eq_ix3_00 j]
  show colAcc m c t.val t.isLt (ix3 (0 : Fin 1) (0 : Fin 1) _) = _
  rw [colAcc_last m c t h1]
  unfold colMins
  congr 1
  · apply Fin.ext
    show t.val / 64 = win0_2.index t (0 : Fin 3) * 1 + 1 * 0
    rw [e0]; omega
  · apply Fin.ext
    show (j 2).val = win0_2.index t (2 : Fin 3) * 512 + 1 * (j 2).val
    rw [e2]; omega

/-- The same for the array of row sums. -/
theorem flushed3_eq (c : Dev nD) (t : Fin cfg0.N) (hf : (cfg0.win 3).flush t = true) :
    (dats m 0 c).flushed 3 t = ((cfg0.win 3).blk t).view.read (Elt Ideal) (rowSums m c) := by
  have h1 : t.val % 64 = 63 := (flush0_3 t).mp hf
  have hN := lt_N t
  obtain ⟨-, -, -, -, -, -, -, e0, e1, e2⟩ := idx_facts t
  show (cfg0.win 3).cut (grid0.coords t) ((dats m 0 c).after 3 t) = _
  rw [after0_3, out3_last m c t h1]
  funext j
  rw [View.read_apply, eq_ix3_000 j]
  show sumAcc m c t.val t.isLt (ix3 (0 : Fin 1) (0 : Fin 1) (0 : Fin 1)) = _
  rw [sumAcc_last m c t h1]
  unfold rowSums
  congr 1
  apply Fin.ext
  show t.val / 64 = win0_3.index t (0 : Fin 3) * 1 + 1 * 0
  rw [e0]; omega

/-- The last tile of half `h`, as a grid point. -/
def lastOf (h : ℕ) (hh : h < 2) : Fin cfg0.N := ⟨h * 64 + 63, by rw [show cfg0.N = 128 from N_0]; omega⟩

/-- The two blocks of the array of column minima cover it. -/
theorem cover2 (c : Dev nD) (i : ((cfg0.win 2).arr.view.loc (c.tc : Thread nD τ)).2.ty.Idx) :
    ∃ t : Fin cfg0.N, (cfg0.win 2).flush t = true ∧ i ∈ ((cfg0.win 2).blk t).view.set := by
  have i0 : (i 0).val < 2 := (i 0).isLt
  have i1 : (i 1).val < 1 := (i 1).isLt
  have i2 : (i 2).val < 512 := (i 2).isLt
  refine ⟨lastOf (i 0).val i0, (flush0_2 _).mpr (by show ((i 0).val * 64 + 63) % 64 = 63; omega), ?_⟩
  obtain ⟨-, -, -, -, e0, e1, e2, -⟩ := idx_facts (lastOf (i 0).val i0)
  have e0' : win0_2.index (lastOf (i 0).val i0) (0 : Fin 3) = (i 0).val := by
    rw [e0]; show ((i 0).val * 64 + 63) / 64 = (i 0).val; omega
  show i ∈ ((View.whole main_v0_0).slice (win0_2.rect (lastOf (i 0).val i0))).set
  rw [View.set_slice_whole, Rect.mem_set_unit]
  intro a
  match a with
  | ⟨0, _⟩ =>
    show win0_2.index (lastOf (i 0).val i0) (0 : Fin 3) * 1 ≤ (i 0).val ∧ (i 0).val < win0_2.index (lastOf (i 0).val i0) (0 : Fin 3) * 1 + 1
    rw [e0']; omega
  | ⟨1, _⟩ =>
    show win0_2.index (lastOf (i 0).val i0) (1 : Fin 3) * 1 ≤ (i 1).val ∧ (i 1).val < win0_2.index (lastOf (i 0).val i0) (1 : Fin 3) * 1 + 1
    rw [e1]; omega
  | ⟨2, _⟩ =>
    show win0_2.index (lastOf (i 0).val i0) (2 : Fin 3) * 512 ≤ (i 2).val ∧ (i 2).val < win0_2.index (lastOf (i 0).val i0) (2 : Fin 3) * 512 + 512
    rw [e2]; omega

/-- The two blocks of the array of row sums cover it. -/
theorem cover3 (c : Dev nD) (i : ((cfg0.win 3).arr.view.loc (c.tc : Thread nD τ)).2.ty.Idx) :
    ∃ t : Fin cfg0.N, (cfg0.win 3).flush t = true ∧ i ∈ ((cfg0.win 3).blk t).view.set := by
  have i0 : (i 0).val < 2 := (i 0).isLt
  have i1 : (i 1).val < 1 := (i 1).isLt
  have i2 : (i 2).val < 1 := (i 2).isLt
  refine ⟨lastOf (i 0).val i0, (flush0_3 _).mpr (by show ((i 0).val * 64 + 63) % 64 = 63; omega), ?_⟩
  obtain ⟨-, -, -, -, -, -, -, e0, e1, e2⟩ := idx_facts (lastOf (i 0).val i0)
  have e0' : win0_3.index (lastOf (i 0).val i0) (0 : Fin 3) = (i 0).val := by
    rw [e0]; show ((i 0).val * 64 + 63) / 64 = (i 0).val; omega
  show i ∈ ((View.whole main_v0_1).slice (win0_3.rect (lastOf (i 0).val i0))).set
  rw [View.set_slice_whole, Rect.mem_set_unit]
  intro a
  match a with
  | ⟨0, _⟩ =>
    show win0_3.index (lastOf (i 0).val i0) (0 : Fin 3) * 1 ≤ (i 0).val ∧ (i 0).val < win0_3.index (lastOf (i 0).val i0) (0 : Fin 3) * 1 + 1
    rw [e0']; omega
  | ⟨1, _⟩ =>
    show win0_3.index (lastOf (i 0).val i0) (1 : Fin 3) * 1 ≤ (i 1).val ∧ (i 1).val < win0_3.index (lastOf (i 0).val i0) (1 : Fin 3) * 1 + 1
    rw [e1]; omega
  | ⟨2, _⟩ =>
    show win0_3.index (lastOf (i 0).val i0) (2 : Fin 3) * 1 ≤ (i 2).val ∧ (i 2).val < win0_3.index (lastOf (i 0).val i0) (2 : Fin 3) * 1 + 1
    rw [e2]; omega

/-- The arrays after the region. -/
theorem final2 (c : Dev nD) : (dats m 0 c).arrAt 2 cfg0.N = colMins m c :=
  (dats m 0 c).arrAt_eq_of_cover 2 (colMins m c) (flushed2_eq m c) (cover2 c)
theorem final3 (c : Dev nD) : (dats m 0 c).arrAt 3 cfg0.N = rowSums m c :=
  (dats m 0 c).arrAt_eq_of_cover 3 (rowSums m c) (flushed3_eq m c) (cover3 c)

/-- The program's result: the tiled loss of the argument arrays. -/
theorem result_eq (c : Dev nD) :
    Pipeline.afterTail₀ cfgs (dats m) 0 (V0 m) [hostOps1] c main_v10 = fun _ => tiledLoss (zA m c) (wA m c) := by
  rw [tail_run, final2, final3]
  funext i
  rw [tail_value]
  rfl

/-- The run, read: the result buffer at the tiled loss of the arguments, the arguments unchanged. -/
theorem run : θ_run defs (onTc (τ := τ) (main (F := Ideal))) ⟨m, fun _ => 0, ρ⟩ fun r => ∀ c : Dev nD,
      r.2.mem ((c.tc : Thread nD τ).loc main_v10) = (fun _ => tiledLoss (zA m c) (wA m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v10 (by decide)).trans (result_eq m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩)
    (run_main m ρ)

end Cert.KernelIdeal.Final

end
-- ==== Proof.RefRun.lean ====
/- The reference program's run and its stages read one operation at a time: the generated modules, gathered
   under one import for the modules that state what the reference computes. -/
import proofs.«113680_j20349555048831_1_alg».proof.Proof.Gen.ReferenceIdeal.Run
import proofs.«113680_j20349555048831_1_alg».proof.Proof.Gen.ReferenceIdeal.Read
-- ==== Proof.RefValue.lean ====
/-
  The value of the reference program: its last stage is, at its one index, the loss `refLoss` of the two arguments.

  Per pair of rows the stage before each minimum is the distance of the rows: the squared norms are the sums the
  reference takes from the word 0, the inner product its `dot_general` against the transposed operand, and
  `sqrt (max (|a|² + |b|² - 2·⟨a, b⟩) 0)` is read off operation by operation. Each minimum reduction is the fold of
  `min` from +∞ over the coordinates of the reduced axis, and each mean the sum from the word 0 over the rows,
  divided by the count; the weights and the final sum stand as in `refLoss`.
-/
import proofs.«113680_j20349555048831_1_alg».proof.Proof.Spec
import proofs.«113680_j20349555048831_1_alg».proof.Proof.RefRun
import Idealize.ShloMosaic.Lib.ValueIdx
import Idealize.ShloMosaic.Lib.ValueIdxRank1
import Idealize.ShloMosaic.Lib.Pipeline.Value
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.Read Idealize.ShloMosaic
  Idealize.ShloMosaic.ValueIdx ProtoLoss

/-- The two arguments, as the stages take them. -/
abbrev X0 : Type := (⟨S262144x256, .f32⟩ : BufTy).Contents (Elt Ideal)
abbrev X1 : Type := (⟨S512x256, .f32⟩ : BufTy).Contents (Elt Ideal)

/-! ## The squared norms -/

/-- The zero word the reference's sums start from is 0. -/
theorem zero_word : (FloatOps.ofBits (F := Ideal) .f32 0x00000000#32) = (0 : EReal) := Ideal.ofBits_zero_f32

/-- The first matrix's row norms: stage 1 at row `n` is `|zₙ|²`. -/
theorem v1_at (x0 : X0) (n : Fin 262144) : val_main_v1 (F := Ideal) x0 (ix1 n) = sqNorm (zrow x0 n) := by
  rw [val_main_v1_apply, val_main_cst_apply, zero_word, zero_add]
  refine Finset.sum_congr rfl fun k _ => ?_
  rw [val_main_v0_apply, Ideal.mulf_def]
  have e : idx_main_v1 (ix1 n) k = ix2 n k := funext fun a => Fin.ext (by match a with | ⟨0, _⟩ => rfl | ⟨1, _⟩ => rfl)
  rw [e]; rfl

/-- The first matrix's column norms: stage 4 at prototype `p` is `|wₚ|²`. -/
theorem v4_at (x1 : X1) (p : Fin 512) : val_main_v4 (F := Ideal) x1 (ix1 p) = sqNorm (wrow x1 p) := by
  rw [val_main_v4_apply, val_main_cst_0_apply, zero_word, zero_add]
  refine Finset.sum_congr rfl fun k _ => ?_
  rw [val_main_v3_apply, Ideal.mulf_def]
  have e : idx_main_v4 (ix1 p) k = ix2 p k := funext fun a => Fin.ext (by match a with | ⟨0, _⟩ => rfl | ⟨1, _⟩ => rfl)
  rw [e]; rfl

/-- The second matrix's row norms: stage 18 at prototype `p` is `|wₚ|²`. -/
theorem v18_at (x1 : X1) (p : Fin 512) : val_main_v18 (F := Ideal) x1 (ix1 p) = sqNorm (wrow x1 p) := by
  rw [val_main_v18_apply, val_main_cst_3_apply, zero_word, zero_add]
  refine Finset.sum_congr rfl fun k _ => ?_
  rw [val_main_v17_apply, Ideal.mulf_def]
  have e : idx_main_v18 (ix1 p) k = ix2 p k := funext fun a => Fin.ext (by match a with | ⟨0, _⟩ => rfl | ⟨1, _⟩ => rfl)
  rw [e]; rfl

/-- The second matrix's column norms: stage 21 at row `n` is `|zₙ|²`. -/
theorem v21_at (x0 : X0) (n : Fin 262144) : val_main_v21 (F := Ideal) x0 (ix1 n) = sqNorm (zrow x0 n) := by
  rw [val_main_v21_apply, val_main_cst_4_apply, zero_word, zero_add]
  refine Finset.sum_congr rfl fun k _ => ?_
  rw [val_main_v20_apply, Ideal.mulf_def]
  have e : idx_main_v21 (ix1 n) k = ix2 n k := funext fun a => Fin.ext (by match a with | ⟨0, _⟩ => rfl | ⟨1, _⟩ => rfl)
  rw [e]; rfl

/-! ## The inner products -/

/-- Stage 10 at `(n, p)` is `⟨zₙ, wₚ⟩`. -/
theorem v10_at (x0 : X0) (x1 : X1) (n : Fin 262144) (p : Fin 512) :
    val_main_v10 (F := Ideal) x0 x1 (ix2 n p) = dotp (zrow x0 n) (wrow x1 p) := by
  rw [val_main_v10_apply]
  refine Finset.sum_congr rfl fun k _ => ?_
  rw [val_main_v9_apply]
  have el : lidx_main_v10 (ix2 n p) k = ix2 n k := funext fun a => Fin.ext (by match a with | ⟨0, _⟩ => rfl | ⟨1, _⟩ => rfl)
  have er : idx_main_v9 (ridx_main_v10 (ix2 n p) k) = ix2 p k := funext fun a => Fin.ext (by match a with | ⟨0, _⟩ => rfl | ⟨1, _⟩ => rfl)
  rw [el, er]; rfl

/-- Stage 27 at `(p, n)` is `⟨wₚ, zₙ⟩`. -/
theorem v27_at (x0 : X0) (x1 : X1) (n : Fin 262144) (p : Fin 512) :
    val_main_v27 (F := Ideal) x0 x1 (ix2 p n) = dotp (wrow x1 p) (zrow x0 n) := by
  rw [val_main_v27_apply]
  refine Finset.sum_congr rfl fun k _ => ?_
  rw [val_main_v26_apply]
  have el : lidx_main_v27 (ix2 p n) k = ix2 p k := funext fun a => Fin.ext (by match a with | ⟨0, _⟩ => rfl | ⟨1, _⟩ => rfl)
  have er : idx_main_v26 (ridx_main_v27 (ix2 p n) k) = ix2 n k := funext fun a => Fin.ext (by match a with | ⟨0, _⟩ => rfl | ⟨1, _⟩ => rfl)
  rw [el, er]; rfl

/-! ## The two distance matrices -/

/-- Stage 16 at `(n, p)` is the distance of row `n` of `z` and row `p` of `w`. -/
theorem v16_at (x0 : X0) (x1 : X1) (n : Fin 262144) (p : Fin 512) :
    val_main_v16 (F := Ideal) x0 x1 (ix2 n p) = dist (zrow x0 n) (wrow x1 p) := by
  rw [val_main_v16_apply, Ideal.hostUnary_sqrt_def, val_main_v15_apply, Ideal.maximumf_def, val_main_v13_apply,
    Ideal.subf_def, val_main_v8_apply, Ideal.addf_def, val_main_v12_apply, Ideal.mulf_def, val_main_v6_apply,
    val_main_v2_apply, val_main_v7_apply, val_main_v5_apply, val_main_v11_apply, val_main_cst_1_apply,
    val_main_v14_apply, val_main_cst_2_apply, zero_word, v10_at]
  have e1 : idx_main_v2 (idx_main_v6 (ix2 n p)) = ix1 n := funext fun a => Fin.ext (by match a with | ⟨0, _⟩ => rfl)
  have e2 : idx_main_v5 (idx_main_v7 (ix2 n p)) = ix1 p := funext fun a => Fin.ext (by match a with | ⟨0, _⟩ => rfl)
  rw [e1, e2, v1_at, v4_at]; rfl

/-- Stage 33 at `(p, n)` is the distance of row `p` of `w` and row `n` of `z`. -/
theorem v33_at (x0 : X0) (x1 : X1) (n : Fin 262144) (p : Fin 512) :
    val_main_v33 (F := Ideal) x0 x1 (ix2 p n) = dist (wrow x1 p) (zrow x0 n) := by
  rw [val_main_v33_apply, Ideal.hostUnary_sqrt_def, val_main_v32_apply, Ideal.maximumf_def, val_main_v30_apply,
    Ideal.subf_def, val_main_v25_apply, Ideal.addf_def, val_main_v29_apply, Ideal.mulf_def, val_main_v23_apply,
    val_main_v19_apply, val_main_v24_apply, val_main_v22_apply, val_main_v28_apply, val_main_cst_5_apply,
    val_main_v31_apply, val_main_cst_6_apply, zero_word, v27_at]
  have e1 : idx_main_v19 (idx_main_v23 (ix2 p n)) = ix1 p := funext fun a => Fin.ext (by match a with | ⟨0, _⟩ => rfl)
  have e2 : idx_main_v22 (idx_main_v24 (ix2 p n)) = ix1 n := funext fun a => Fin.ext (by match a with | ⟨0, _⟩ => rfl)
  rw [e1, e2, v18_at, v21_at]; rfl

/-! ## The two minimum reductions -/

/-- Stage 34 at row `n`: the minimum from +∞ over the prototypes of stage 16's row `n`. -/
theorem v34_at (x0 : X0) (x1 : X1) (n : Fin 262144) :
    val_main_v34 (F := Ideal) x0 x1 (ix1 n) = minOver fun p : Fin 512 => val_main_v16 (F := Ideal) x0 x1 (ix2 n p) := by
  unfold val_main_v34
  generalize val_main_v16 (F := Ideal) x0 x1 = y
  have h : S262144x512.Reduces [1] S262144 := by decide
  rw [Host.reduce_eq_fold_single _ _ _ reducesTo_S262144x512_S262144_d1 h h_S_]
  have e : (y ∘ h.lift (ix1 n)) = fun p : Fin 512 => y (ix2 n p) := funext fun k => congrArg y
    (funext fun a => Fin.ext (by match a with | ⟨0, _⟩ => rfl | ⟨1, _⟩ => rfl))
  rw [e]; rfl

/-- Stage 38 at prototype `p`: the minimum from +∞ over the rows of stage 33's row `p`. -/
theorem v38_at (x0 : X0) (x1 : X1) (p : Fin 512) :
    val_main_v38 (F := Ideal) x0 x1 (ix1 p) = minOver fun n : Fin 262144 => val_main_v33 (F := Ideal) x0 x1 (ix2 p n) := by
  unfold val_main_v38
  generalize val_main_v33 (F := Ideal) x0 x1 = y
  have h : S512x262144.Reduces [1] S512 := by decide
  rw [Host.reduce_eq_fold_single _ _ _ reducesTo_S512x262144_S512_d1 h h_S_]
  have e : (y ∘ h.lift (ix1 p)) = fun n : Fin 262144 => y (ix2 p n) := funext fun k => congrArg y
    (funext fun a => Fin.ext (by match a with | ⟨0, _⟩ => rfl | ⟨1, _⟩ => rfl))
  rw [e]; rfl

/-! ## The two means and the loss -/

/-- Stage 35: the sum over the rows of the row minima. -/
theorem v35_at (x0 : X0) (x1 : X1) (i : S_.Idx) :
    val_main_v35 (F := Ideal) x0 x1 i = ∑ n : Fin 262144, minOver fun p : Fin 512 => dist (zrow x0 n) (wrow x1 p) := by
  rw [val_main_v35_apply, val_main_cst_8_apply, zero_word, zero_add,
    ← Equiv.sum_comp (idxEquiv1 (n := 262144)).symm]
  refine Finset.sum_congr rfl fun n _ => ?_
  show val_main_v34 (F := Ideal) x0 x1 (ix1 n) = _
  rw [v34_at]
  exact congrArg minOver (funext fun p => v16_at x0 x1 n p)

/-- Stage 39: the sum over the prototypes of the prototype minima. -/
theorem v39_at (x0 : X0) (x1 : X1) (i : S_.Idx) :
    val_main_v39 (F := Ideal) x0 x1 i = ∑ p : Fin 512, minOver fun n : Fin 262144 => dist (wrow x1 p) (zrow x0 n) := by
  rw [val_main_v39_apply, val_main_cst_12_apply, zero_word, zero_add,
    ← Equiv.sum_comp (idxEquiv1 (n := 512)).symm]
  refine Finset.sum_congr rfl fun p _ => ?_
  show val_main_v38 (F := Ideal) x0 x1 (ix1 p) = _
  rw [v38_at]
  exact congrArg minOver (funext fun n => v33_at x0 x1 n p)

/-- The reference's result is the loss. -/
theorem ref_value (x0 : (⟨S262144x256, .f32⟩ : BufTy).Contents (Elt Ideal)) (x1 : (⟨S512x256, .f32⟩ : BufTy).Contents (Elt Ideal)) :
    val_main_v42 (F := Ideal) x0 x1 = fun _ => refLoss x0 x1 := by
  funext i
  rw [val_main_v42_apply, Ideal.addf_def, val_main_v37_apply, Ideal.mulf_def, val_main_cst_10_apply, val_main_v36_apply,
    Ideal.hostDivf_def, val_main_cst_9_apply, v35_at, val_main_v41_apply, Ideal.mulf_def, val_main_cst_14_apply,
    val_main_v40_apply, Ideal.hostDivf_def, val_main_cst_13_apply, v39_at]
  rfl

end Cert.ReferenceIdeal.RefValue

end
-- ==== Proof.lean ====
/-
  The certificate of the prototype-distance loss: a tiled kernel against its plain reference, over the extended reals.

  Both programs compute `reg · (Σₙ minₚ dist zₙ wₚ) / N + reg · (Σₚ minₙ dist wₚ zₙ) / P` for 262144 rows `z` and 512
  prototype rows `w` of length 256, with `dist a b = sqrt (max (|a|² + |b|² - 2·⟨a, b⟩) 0)`. The reference forms both
  distance matrices whole. The kernel forms one, tile by tile (128 tiles of 2048 rows, in two halves of 64): per tile
  the column minima and the sum of the row minima, accumulated over a half from +∞ resp. 0 and written out at the
  half's last tile; the host lines after it combine the two halves. The two agree because the distance is symmetric,
  a minimum over all rows is the minimum over halves, tiles and rows of a tile (compared through lower bounds), and
  a sum over all rows is the sum over halves, tiles and rows of a tile; no step needs the inputs finite.

  The modules: `Spec` states the two forms of the loss; `Algebra` proves them equal; `Accum` is the closed form of an
  accumulator restarted every 64 steps; `Pieces`, `Steps`, `Blocks`, `Payload`, `KValue` read the kernel's
  accumulators tile by tile; `Tail`, `TailValue`, `Final` the host lines and the kernel program's result;
  `RefValue` the reference's result. The three frames are the generated frame runs (the reference's: its run with the
  result dropped); the kernel's idealization rewrote nothing.
-/
import proofs.«113680_j20349555048831_1_alg».proof.Defs
import proofs.«113680_j20349555048831_1_alg».proof.Proof.Gen.Kernel
import proofs.«113680_j20349555048831_1_alg».proof.Proof.Gen.Kernel.Skeleton
import proofs.«113680_j20349555048831_1_alg».proof.Proof.Gen.Kernel.Launch
import proofs.«113680_j20349555048831_1_alg».proof.Proof.Gen.Kernel.Points
import proofs.«113680_j20349555048831_1_alg».proof.Proof.Gen.Kernel.Frame
import proofs.«113680_j20349555048831_1_alg».proof.Proof.Gen.KernelIdeal
import proofs.«113680_j20349555048831_1_alg».proof.Proof.Gen.KernelIdeal.Skeleton
import proofs.«113680_j20349555048831_1_alg».proof.Proof.Gen.KernelIdeal.Launch
import proofs.«113680_j20349555048831_1_alg».proof.Proof.Gen.KernelIdeal.Points
import proofs.«113680_j20349555048831_1_alg».proof.Proof.Gen.KernelIdeal.Frame
import proofs.«113680_j20349555048831_1_alg».proof.Proof.Gen.ReferenceIdeal
import proofs.«113680_j20349555048831_1_alg».proof.Proof.Gen.Pre_finite_inputs
import proofs.«113680_j20349555048831_1_alg».proof.Proof.Final
import proofs.«113680_j20349555048831_1_alg».proof.Proof.RefValue
import proofs.«113680_j20349555048831_1_alg».proof.Proof.Algebra
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the ideal values the kernel program ends at the tiled loss of its arguments and the reference at the
    reference's loss of arguments that agree: one extended real. -/
theorem algebraic : Cert.algebraic_KernelIdeal_ReferenceIdeal := by
  intro m ρ m' ρ' _ hagree
  refine ⟨fun c => (fun _ => ProtoLoss.tiledLoss (Cert.KernelIdeal.KValue.zA m c) (Cert.KernelIdeal.KValue.wA m c)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, Cert.ReferenceIdeal.RefValue.ref_value, (hagree c).1, (hagree c).2,
    ← ProtoLoss.tiledLoss_eq_refLoss]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
